-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x512 : Shape := ⟨2, ![8192, 512]⟩
abbrev S256x768 : Shape := ⟨2, ![256, 768]⟩
abbrev S256 : Shape := ⟨1, ![256]⟩
abbrev S256x256 : Shape := ⟨2, ![256, 256]⟩
abbrev S2048x256 : Shape := ⟨2, ![2048, 256]⟩
abbrev S2048 : Shape := ⟨1, ![2048]⟩
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S512x512 .f32) (main_arg12 : FVec F S512 .f32) (main_arg13 : FVec F S1x512 .f32) (main_arg14 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S1x512 .f32 := Host.absf main_arg13
  let main_cst_24 : FVec F S_ .f32 := constant S_ .f32 0x7F800000#32
  let main_v65 : FVec F S1x512 .f32 := broadcastInDim S1x512 ![] bcast_S_S1x512 main_cst_24
  let main_v66 : IVec S1x512 1 := cmpf .olt main_v64 main_v65
  let main_c_25 : IVec S_ 1 := constantI S_ 1 1#1
  let main_v67 : IVec S_ 1 := (fun x v => Host.reduce IntOp.andi x v reducesTo_S1x512_S_d0_1 h_S_) main_v66 main_c_25
  fn_part4 (F := F) main_arg14 main_v63 main_v67

def fn_part2 {F : FTy → Type} [FloatOps F] (main_arg7 : FVec F S2048x256 .f32) (main_arg8 : FVec F S2048 .f32) (main_arg9 : FVec F S2048x512 .f32) (main_arg10 : FVec F S2048 .f32) (main_arg11 : FVec F S512x512 .f32) (main_arg12 : FVec F S512 .f32) (main_arg13 : FVec F S1x512 .f32) (main_arg14 : FVec F S1 .f32) (main_v33 : IVec S_ 1) : IVec S_ 1 :=
  let main_v34 : FVec F S2048x256 .f32 := Host.absf main_arg7
  let main_cst_12 : FVec F S_ .f32 := constant S_ .f32 0x7F800000#32
  let main_v35 : FVec F S2048x256 .f32 := broadcastInDim S2048x256 ![] bcast_S_S2048x256 main_cst_12
  let main_v36 : IVec S2048x256 1 := cmpf .olt main_v34 main_v35
  let main_c_13 : IVec S_ 1 := constantI S_ 1 1#1
  let main_v37 : IVec S_ 1 := (fun x v => Host.reduce IntOp.andi x v reducesTo_S2048x256_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x512 .f32 := Host.absf main_arg9
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S2048x256 .f32) (main_arg8 : FVec F S2048 .f32) (main_arg9 : FVec F S2048x512 .f32) (main_arg10 : FVec F S2048 .f32) (main_arg11 : FVec F S512x512 .f32) (main_arg12 : FVec F S512 .f32) (main_arg13 : FVec F S1x512 .f32) (main_arg14 : FVec F S1 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x256 .f32) (main_arg1 : FVec F S8192x512 .f32) (main_arg2 : FVec F S8192x512 .f32) (main_arg3 : FVec F S256x768 .f32) (main_arg4 : FVec F S256 .f32) (main_arg5 : FVec F S256x256 .f32) (main_arg6 : FVec F S256 .f32) (main_arg7 : FVec F S2048x256 .f32) (main_arg8 : FVec F S2048 .f32) (main_arg9 : FVec F S2048x512 .f32) (main_arg10 : FVec F S2048 .f32) (main_arg11 : FVec F S512x512 .f32) (main_arg12 : FVec F S512 .f32) (main_arg13 : FVec F S1x512 .f32) (main_arg14 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x256 : Shape := ⟨2, ![8192, 256]⟩
abbrev S8192x512 : Shape := ⟨2, ![8192, 512]⟩
abbrev S256x768 : Shape := ⟨2, ![256, 768]⟩
abbrev S256 : Shape := ⟨1, ![256]⟩
abbrev S256x256 : Shape := ⟨2, ![256, 256]⟩
abbrev S2048x256 : Shape := ⟨2, ![2048, 256]⟩
abbrev S2048 : Shape := ⟨1, ![2048]⟩
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S768x256 : Shape := ⟨2, ![768, 256]⟩
abbrev S256x2048 : Shape := ⟨2, ![256, 2048]⟩
abbrev S512x2048 : Shape := ⟨2, ![512, 2048]⟩
abbrev S512x1 : Shape := ⟨2, ![512, 1]⟩
abbrev S1x256 : Shape := ⟨2, ![1, 256]⟩
abbrev S1x2048 : Shape := ⟨2, ![1, 2048]⟩
abbrev S1x1 : Shape := ⟨2, ![1, 1]⟩
abbrev S8192x1 : Shape := ⟨2, ![8192, 1]⟩
abbrev S256x512 : Shape := ⟨2, ![256, 512]⟩
abbrev S256x1 : Shape := ⟨2, ![256, 1]⟩

abbrev nBuf : Space → Nat
  | .hbm => 37
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S256x768, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2048x256, .f32⟩
  | .hbm, ⟨8, _⟩ => ⟨S2048, .f32⟩
  | .hbm, ⟨9, _⟩ => ⟨S2048x512, .f32⟩
  | .hbm, ⟨10, _⟩ => ⟨S2048, .f32⟩
  | .hbm, ⟨11, _⟩ => ⟨S512x512, .f32⟩
  | .hbm, ⟨12, _⟩ => ⟨S512, .f32⟩
  | .hbm, ⟨13, _⟩ => ⟨S1x512, .f32⟩
  | .hbm, ⟨14, _⟩ => ⟨S1, .f32⟩
  | .hbm, ⟨15, _⟩ => ⟨S768x256, .f32⟩
  | .hbm, ⟨16, _⟩ => ⟨S768x256, .bf16⟩
  | .hbm, ⟨17, _⟩ => ⟨S256x256, .f32⟩
  | .hbm, ⟨18, _⟩ => ⟨S256x256, .bf16⟩
  | .hbm, ⟨19, _⟩ => ⟨S256x2048, .f32⟩
  | .hbm, ⟨20, _⟩ => ⟨S256x2048, .bf16⟩
  | .hbm, ⟨21, _⟩ => ⟨S512x2048, .f32⟩
  | .hbm, ⟨22, _⟩ => ⟨S512x2048, .bf16⟩
  | .hbm, ⟨23, _⟩ => ⟨S512x512, .f32⟩
  | .hbm, ⟨24, _⟩ => ⟨S512x512, .bf16⟩
  | .hbm, ⟨25, _⟩ => ⟨S512x1, .f32⟩
  | .hbm, ⟨26, _⟩ => ⟨S512x1, .bf16⟩
  | .hbm, ⟨27, _⟩ => ⟨S1x256, .f32⟩
  | .hbm, ⟨28, _⟩ => ⟨S1x256, .f32⟩
  | .hbm, ⟨29, _⟩ => ⟨S1x2048, .f32⟩
  | .hbm, ⟨30, _⟩ => ⟨S1x2048, .f32⟩
  | .hbm, ⟨31, _⟩ => ⟨S1x512, .f32⟩
  | .hbm, ⟨32, _⟩ => ⟨S1x1, .f32⟩
  | .hbm, ⟨33, _⟩ => ⟨S8192x1, .f32⟩
  | .hbm, ⟨34, _⟩ => ⟨S8192x512, .f32⟩
  | .hbm, ⟨35, _⟩ => ⟨S8192x512, .f32⟩
  | .hbm, ⟨36, _⟩ => ⟨S8192x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S768x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x2048, .bf16⟩
  | .local _ .vmem, ⟨11, _⟩ => ⟨S1x2048, .f32⟩
  | .local _ .vmem, ⟨12, _⟩ => ⟨S512x2048, .bf16⟩
  | .local _ .vmem, ⟨13, _⟩ => ⟨S1x2048, .f32⟩
  | .local _ .vmem, ⟨14, _⟩ => ⟨S512x512, .bf16⟩
  | .local _ .vmem, ⟨15, _⟩ => ⟨S1x512, .f32⟩
  | .local _ .vmem, ⟨16, _⟩ => ⟨S512x1, .bf16⟩
  | .local _ .vmem, ⟨17, _⟩ => ⟨S1x1, .f32⟩
  | .local _ .vmem, ⟨18, _⟩ => ⟨S256x1, .f32⟩
  | .local _ .vmem, ⟨19, _⟩ => ⟨S256x1, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x256, .f32⟩
  | .local _ .vmem, ⟨25, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S256x768_S768x256_1_0 : S256x768.Transposes [1, 0] S768x256
  bitsLt_bf16_f32 : FTy.bits .bf16 < FTy.bits .f32
  transposes_S256x256_S256x256_1_0 : S256x256.Transposes [1, 0] S256x256
  transposes_S2048x256_S256x2048_1_0 : S2048x256.Transposes [1, 0] S256x2048
  transposes_S2048x512_S512x2048_1_0 : S2048x512.Transposes [1, 0] S512x2048
  transposes_S512x512_S512x512_1_0 : S512x512.Transposes [1, 0] S512x512
  transposes_S1x512_S512x1_1_0 : S1x512.Transposes [1, 0] S512x1
  shapeCasts_S256_S1x256 : S256.ShapeCasts S1x256
  shapeCasts_S2048_S1x2048 : S2048.ShapeCasts S1x2048
  shapeCasts_S512_S1x512 : S512.ShapeCasts S1x512
  shapeCasts_S1_S1x1 : S1.ShapeCasts S1x1
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  concatenates_S256x256_S256x512_S256x768_d1 : Shape.Concatenates [S256x256, S256x512] S256x768 1
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S256x256_S256x256 : S256x256.ShapeCasts S256x256
  reduces_S256x256_S256 : S256x256.Reduces [1] S256
  shapeCasts_S256_S256x1 : S256.ShapeCasts S256x1
  broadcasts_S256x1_S256x256 : S256x1.Broadcasts S256x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x768_S768x256_S256x256_1_0_0_1_n_n_wf : DotDims.WF S256x768 S768x256 S256x256 [1] [0] [0] [1] [] []
  dot_S256x256_S256x256_S256x256_1_0_0_1_n_n_wf : DotDims.WF S256x256 S256x256 S256x256 [1] [0] [0] [1] [] []
  dot_S256x256_S256x2048_S256x2048_1_0_0_1_n_n_wf : DotDims.WF S256x256 S256x2048 S256x2048 [1] [0] [0] [1] [] []
  dot_S256x512_S512x2048_S256x2048_1_0_0_1_n_n_wf : DotDims.WF S256x512 S512x2048 S256x2048 [1] [0] [0] [1] [] []
  dot_S256x512_S512x512_S256x512_1_0_0_1_n_n_wf : DotDims.WF S256x512 S512x512 S256x512 [1] [0] [0] [1] [] []
  dot_S256x512_S512x1_S256x1_1_0_0_1_n_n_wf : DotDims.WF S256x512 S512x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S8192x512.size a
  hwx0_2 : ∀ i : grid0.Coords, EltTy.bits .f32 = 32 ∨ (Rect.block (s := S8192x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S256x2048.size a
  hwx0_7 : ∀ i : grid0.Coords, EltTy.bits .bf16 = 32 ∨ (Rect.block (s := S256x2048) S256x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S512x2048.size a
  hwx0_9 : ∀ i : grid0.Coords, EltTy.bits .bf16 = 32 ∨ (Rect.block (s := S512x2048) S512x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S512x1.size a
  hwx0_13 : ∀ i : grid0.Coords, EltTy.bits .bf16 = 32 ∨ (Rect.block (s := S512x1) S512x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1.size a ≤ S8192x1.size a
  hwx0_15 : ∀ i : grid0.Coords, EltTy.bits .f32 = 32 ∨ (Rect.block (s := S8192x1) S256x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S8192x512.size a
  hwx0_16 : ∀ i : grid0.Coords, EltTy.bits .f32 = 32 ∨ (Rect.block (s := S8192x512) S256x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x512.size a ≤ S8192x512.size a
  hwx0_17 : ∀ i : grid0.Coords, EltTy.bits .f32 = 32 ∨ (Rect.block (s := S8192x512) S256x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S8192x256.size a
  hwx0_18 : ∀ i : grid0.Coords, EltTy.bits .f32 = 32 ∨ (Rect.block (s := S8192x256) S256x256.size (cc0_transform_18 i) (hinb0_18 i)).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S512x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S256x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S256x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v18_2) S256x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v18_3) S256x256.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x512 : Shape := ⟨2, ![8192, 512]⟩
abbrev S256x768 : Shape := ⟨2, ![256, 768]⟩
abbrev S256 : Shape := ⟨1, ![256]⟩
abbrev S256x256 : Shape := ⟨2, ![256, 256]⟩
abbrev S2048x256 : Shape := ⟨2, ![2048, 256]⟩
abbrev S2048 : Shape := ⟨1, ![2048]⟩
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S8192x768 : Shape := ⟨2, ![8192, 768]⟩
abbrev S768x256 : Shape := ⟨2, ![768, 256]⟩
abbrev S1x256 : Shape := ⟨2, ![1, 256]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S8192x2048 : Shape := ⟨2, ![8192, 2048]⟩
abbrev S1x2048 : Shape := ⟨2, ![1, 2048]⟩
abbrev S512x2048 : Shape := ⟨2, ![512, 2048]⟩
abbrev S512x1 : Shape := ⟨2, ![512, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x512, .f32⟩
  | .hbm, ⟨2, _⟩ => ⟨S8192x512, .f32⟩
  | .hbm, ⟨3, _⟩ => ⟨S256x768, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2048x256, .f32⟩
  | .hbm, ⟨8, _⟩ => ⟨S2048, .f32⟩
  | .hbm, ⟨9, _⟩ => ⟨S2048x512, .f32⟩
  | .hbm, ⟨10, _⟩ => ⟨S2048, .f32⟩
  | .hbm, ⟨11, _⟩ => ⟨S512x512, .f32⟩
  | .hbm, ⟨12, _⟩ => ⟨S512, .f32⟩
  | .hbm, ⟨13, _⟩ => ⟨S1x512, .f32⟩
  | .hbm, ⟨14, _⟩ => ⟨S1, .f32⟩
  | .hbm, ⟨15, _⟩ => ⟨S8192x768, .f32⟩
  | .hbm, ⟨16, _⟩ => ⟨S768x256, .f32⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S256x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x256, .f32⟩
  | .hbm, ⟨44, _⟩ => ⟨S256x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S512x2048, .f32⟩
  | .hbm, ⟨50, _⟩ => ⟨S8192x2048, .f32⟩
  | .hbm, ⟨51, _⟩ => ⟨S8192x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S_, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S512x512, .f32⟩
  | .hbm, ⟨90, _⟩ => ⟨S8192x512, .f32⟩
  | .hbm, ⟨91, _⟩ => ⟨S1x512, .f32⟩
  | .hbm, ⟨92, _⟩ => ⟨S8192x512, .f32⟩
  | .hbm, ⟨93, _⟩ => ⟨S8192x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S512x1, .f32⟩
  | .hbm, ⟨98, _⟩ => ⟨S8192x1, .f32⟩
  | .hbm, ⟨99, _⟩ => ⟨S1x1, .f32⟩
  | .hbm, ⟨100, _⟩ => ⟨S8192x1, .f32⟩
  | .hbm, ⟨101, _⟩ => ⟨S8192x1, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_4 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_8 : Ref sig .tc := ⟨.hbm, 104, rfl⟩
abbrev main_v76 : Ref sig .tc := ⟨.hbm, 105, rfl⟩
abbrev main_v77 : Ref sig .tc := ⟨.hbm, 106, rfl⟩
abbrev main_cst_9 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  concatenates_S8192x256_S8192x512_S8192x768_d1 : Shape.Concatenates [S8192x256, S8192x512] S8192x768 1
  transposes_S256x768_S768x256_1_0 : S256x768.Transposes [1, 0] S768x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S256x256_S256x256_1_0 : S256x256.Transposes [1, 0] S256x256
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S2048x256_S256x2048_1_0 : S2048x256.Transposes [1, 0] S256x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x512_S512x2048_1_0 : S2048x512.Transposes [1, 0] S512x2048
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S1x512_S512x1_1_0 : S1x512.Transposes [1, 0] S512x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  dot_S8192x768_S768x256_S8192x256_1_0_0_1_n_n_wf : DotDims.WF S8192x768 S768x256 S8192x256 [1] [0] [0] [1] [] []
  dot_S8192x256_S256x256_S8192x256_1_0_0_1_n_n_wf : DotDims.WF S8192x256 S256x256 S8192x256 [1] [0] [0] [1] [] []
  dot_S8192x256_S256x2048_S8192x2048_1_0_0_1_n_n_wf : DotDims.WF S8192x256 S256x2048 S8192x2048 [1] [0] [0] [1] [] []
  dot_S8192x512_S512x2048_S8192x2048_1_0_0_1_n_n_wf : DotDims.WF S8192x512 S512x2048 S8192x2048 [1] [0] [0] [1] [] []
  dot_S8192x512_S512x512_S8192x512_1_0_0_1_n_n_wf : DotDims.WF S8192x512 S512x512 S8192x512 [1] [0] [0] [1] [] []
  dot_S8192x512_S512x1_S8192x1_1_0_0_1_n_n_wf : DotDims.WF S8192x512 S512x1 S8192x1 [1] [0] [0] [1] [] []

variable [Facts₀]

def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf

class Facts : Prop extends Facts₀ where

variable [Facts]
-- ==== Proof.CellSpec.lean ====
/-
  The mathematics of the kernel, one batch row at a time, on the extended reals.

  Every result row depends on the same row of `x`, `h`, `c` and on the weights only, so the whole computation is a
  function of three rows: the joined row `[x | h]` goes through two affine layers (the first followed by `max · 0`)
  to the logits; a softmax over the row's 256 logits gives the attention; the attended input `x ⊙ attn` and `h` go
  through the LSTM cell's two affine maps to the 2048 gate pre-activations, cut into the four gates i, f, g, o of 512;
  `c' = σ(f) · c + σ(i) · tanh(g)`, `h' = σ(o) · tanh(c')`; and `h'` goes through the two-layer head to one number,
  `σ(W₁ · max(W₀ h' + b₀, 0) + b₁)`.

  A weight matrix is a function `W j k` of the output coordinate `j` and the contracted coordinate `k` (the layout
  of the arguments: `y = v · Wᵀ + b`). Sums are `Finset` sums over `Fin K`; the row maximum is the fold of `max` from
  the pattern of `-∞`, then `max` with that pattern once more, as both programs spell it.
-/
import Idealize.ShloMosaic.PureOps.Ideal.Laws
import Idealize.ShloMosaic.Lib.ValueIdx

noncomputable section

open scoped BigOperators
open Idealize.ShloMosaic Idealize.ShloMosaic.ValueIdx

namespace Cert.Cell

/-- The word both programs start a row maximum from (f32's `-∞`), and the word of `0.0` a rectifier compares with. -/
abbrev negInf : EReal := Ideal.ofBits .f32 0xFF800000#32
abbrev zeroW : EReal := Ideal.ofBits .f32 0x00000000#32

/-- Row `r` of a matrix; a matrix stored transposed read as `W j k`; a bias stored as one row, or as a vector. -/
def row {M N : ℕ} (A : (⟨2, ![M, N]⟩ : Shape).Idx → EReal) (r : Fin M) (k : Fin N) : EReal := A (ix2 r k)
def tr {K N : ℕ} (A : (⟨2, ![K, N]⟩ : Shape).Idx → EReal) (j : Fin N) (k : Fin K) : EReal := A (ix2 k j)
def bias2 {N : ℕ} (B : (⟨2, ![1, N]⟩ : Shape).Idx → EReal) (j : Fin N) : EReal := B (ix2 (0 : Fin 1) j)
def bias1 {N : ℕ} (B : (⟨1, ![N]⟩ : Shape).Idx → EReal) (j : Fin N) : EReal := B (ix1 j)

/-- The joined row `[x | h]`. -/
def cat (x : Fin 256 → EReal) (h : Fin 512 → EReal) (k : Fin 768) : EReal :=
  if hk : k.val < 256 then x ⟨k.val, hk⟩ else h ⟨k.val - 256, by have := k.isLt; omega⟩

/-- An affine layer `v · Wᵀ + b`. -/
def lin {K N : ℕ} (W : Fin N → Fin K → EReal) (b : Fin N → EReal) (v : Fin K → EReal) (j : Fin N) : EReal :=
  (∑ k : Fin K, v k * W j k) + b j

/-- The rectifier. -/
def relu {N : ℕ} (v : Fin N → EReal) (j : Fin N) : EReal := max (v j) zeroW

/-- A row's maximum as the programs take it. -/
def rowMax (v : Fin 256 → EReal) : EReal := max negInf ((Finset.univ : Finset (Fin 256)).fold max negInf v)

/-- The softmax of a row of 256. -/
def softmax (v : Fin 256 → EReal) (j : Fin 256) : EReal :=
  Ideal.div (Ideal.exp (v j - rowMax v)) (∑ k : Fin 256, Ideal.exp (v k - rowMax v))

/-- The attention of a row. -/
def attnRow (aw0 : Fin 256 → Fin 768 → EReal) (ab0 : Fin 256 → EReal) (aw1 : Fin 256 → Fin 256 → EReal) (ab1 : Fin 256 → EReal)
    (x : Fin 256 → EReal) (h : Fin 512 → EReal) : Fin 256 → EReal :=
  softmax (lin aw1 ab1 (relu (lin aw0 ab0 (cat x h))))

/-- The attended input. -/
def xAtt (a : Fin 256 → EReal) (x : Fin 256 → EReal) (k : Fin 256) : EReal := x k * a k

/-- The 2048 gate pre-activations: both products first, then the two biases. -/
def gates (wih : Fin 2048 → Fin 256 → EReal) (bih : Fin 2048 → EReal) (whh : Fin 2048 → Fin 512 → EReal) (bhh : Fin 2048 → EReal)
    (xa : Fin 256 → EReal) (h : Fin 512 → EReal) (n : Fin 2048) : EReal :=
  (∑ k : Fin 256, xa k * wih n k) + (∑ k : Fin 512, h k * whh n k) + bih n + bhh n

/-- Coordinate `j` of the gate that starts at `o` (0, 512, 1024 or 1536). -/
def gateAt (o : ℕ) (ho : o + 512 ≤ 2048) (j : Fin 512) : Fin 2048 := ⟨o + j.val, by have := j.isLt; omega⟩

/-- The new cell state and the new hidden state from the gates and the old cell state. -/
def cNew (g : Fin 2048 → EReal) (c : Fin 512 → EReal) (j : Fin 512) : EReal :=
  Ideal.logistic (g (gateAt 512 (by decide) j)) * c j
    + Ideal.logistic (g (gateAt 0 (by decide) j)) * Ideal.tanh (g (gateAt 1024 (by decide) j))
def hNew (g : Fin 2048 → EReal) (c : Fin 512 → EReal) (j : Fin 512) : EReal :=
  Ideal.logistic (g (gateAt 1536 (by decide) j)) * Ideal.tanh (cNew g c j)

/-- The head: two affine layers, the first rectified, then the logistic function of the one result. -/
def head (ow0 : Fin 512 → Fin 512 → EReal) (ob0 : Fin 512 → EReal) (ow1 : Fin 1 → Fin 512 → EReal) (ob1 : Fin 1 → EReal)
    (hn : Fin 512 → EReal) : EReal :=
  Ideal.logistic (lin ow1 ob1 (relu (lin ow0 ob0 hn)) (0 : Fin 1))

/-- The reference adds the input bias between the two products; on the extended reals the order is immaterial. -/
theorem gates_ref (wih : Fin 2048 → Fin 256 → EReal) (bih : Fin 2048 → EReal) (whh : Fin 2048 → Fin 512 → EReal) (bhh : Fin 2048 → EReal)
    (xa : Fin 256 → EReal) (h : Fin 512 → EReal) (n : Fin 2048) :
    (∑ k : Fin 256, xa k * wih n k) + bih n + (∑ k : Fin 512, h k * whh n k) + bhh n = gates wih bih whh bhh xa h n := by
  unfold gates
  rw [add_right_comm (∑ k : Fin 256, xa k * wih n k) (bih n)]

/-! ## The four results as functions of the fifteen argument arrays, index by index -/

section Arrays

variable (X : (⟨2, ![8192, 256]⟩ : Shape).Idx → EReal) (H C : (⟨2, ![8192, 512]⟩ : Shape).Idx → EReal)
  (AW0 : (⟨2, ![256, 768]⟩ : Shape).Idx → EReal) (AB0 : (⟨1, ![256]⟩ : Shape).Idx → EReal)
  (AW1 : (⟨2, ![256, 256]⟩ : Shape).Idx → EReal) (AB1 : (⟨1, ![256]⟩ : Shape).Idx → EReal)
  (WIH : (⟨2, ![2048, 256]⟩ : Shape).Idx → EReal) (BIH : (⟨1, ![2048]⟩ : Shape).Idx → EReal)
  (WHH : (⟨2, ![2048, 512]⟩ : Shape).Idx → EReal) (BHH : (⟨1, ![2048]⟩ : Shape).Idx → EReal)
  (OW0 : (⟨2, ![512, 512]⟩ : Shape).Idx → EReal) (OB0 : (⟨1, ![512]⟩ : Shape).Idx → EReal)
  (OW1 : (⟨2, ![1, 512]⟩ : Shape).Idx → EReal) (OB1 : (⟨1, ![1]⟩ : Shape).Idx → EReal)

/-- Batch row `r`: its attention, its gate pre-activations, its new cell and hidden states, its output. -/
def attnOf (r : Fin 8192) : Fin 256 → EReal :=
  attnRow (row AW0) (bias1 AB0) (row AW1) (bias1 AB1) (row X r) (row H r)
def gatesOf (r : Fin 8192) : Fin 2048 → EReal :=
  gates (row WIH) (bias1 BIH) (row WHH) (bias1 BHH) (xAtt (attnOf X H AW0 AB0 AW1 AB1 r) (row X r)) (row H r)
def cOf (r : Fin 8192) : Fin 512 → EReal :=
  cNew (gatesOf X H AW0 AB0 AW1 AB1 WIH BIH WHH BHH r) (row C r)
def hOf (r : Fin 8192) : Fin 512 → EReal :=
  hNew (gatesOf X H AW0 AB0 AW1 AB1 WIH BIH WHH BHH r) (row C r)
def outOf (r : Fin 8192) : EReal :=
  head (row OW0) (bias1 OB0) (row OW1) (bias1 OB1) (hOf X H C AW0 AB0 AW1 AB1 WIH BIH WHH BHH r)

/-- The four result arrays. -/
def Gattn : (⟨2, ![8192, 256]⟩ : Shape).Idx → EReal := fun i => attnOf X H AW0 AB0 AW1 AB1 (i 0) (i 1)
def Gc : (⟨2, ![8192, 512]⟩ : Shape).Idx → EReal := fun i => cOf X H C AW0 AB0 AW1 AB1 WIH BIH WHH BHH (i 0) (i 1)
def Gh : (⟨2, ![8192, 512]⟩ : Shape).Idx → EReal := fun i => hOf X H C AW0 AB0 AW1 AB1 WIH BIH WHH BHH (i 0) (i 1)
def Gout : (⟨2, ![8192, 1]⟩ : Shape).Idx → EReal :=
  fun i => outOf X H C AW0 AB0 AW1 AB1 WIH BIH WHH BHH OW0 OB0 OW1 OB1 (i 0)

end Arrays

end Cert.Cell

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelAttn.lean ====
/-
  The kernel body's attention part, read at an index of a 256-row block at the ideal values.

  The body joins the block's rows of `x` and `h`, multiplies by the first attention matrix (stored transposed, so the
  product contracts the matrix's rows), adds the bias row, rectifies, multiplies by the second matrix, adds its bias, and
  takes the softmax along each row: row `p` of the result is `Cell.attnRow` of row `p` of the two blocks. The attended
  input is the block of `x` times that, entry by entry. A change of float format is the identity at the ideal values.
-/
import proofs.«125494_j63556926046386_1_alg».proof.Proof.Gen.KernelIdeal.Skeleton
import proofs.«125494_j63556926046386_1_alg».proof.Proof.CellSpec
import proofs.«125494_j63556926046386_1_alg».proof.Proof.LibPlainMatmul
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx
open Cert.KernelIdeal Cert.KernelIdeal.Gen Cert.Cell

namespace Cert.KernelRows

/-! ## Layout operations at an index -/

/-- The two blocks joined along the columns, read at `(p, m)`: the joined row `[x | h]` of row `p`, at `m`. -/
theorem concat_apply (v0 : Vec Ideal S256x256 .f32) (v1 : Vec Ideal S256x512 .f32)
    (h : Shape.Concatenates [S256x256, S256x512] S256x768 1) (p : Fin 256) (m : Fin 768) :
    concatenate S256x768 1 [⟨S256x256, v0⟩, ⟨S256x512, v1⟩] h (ix2 p m) = cat (row v0 p) (row v1 p) m := by
  unfold cat
  by_cases hm : m.val < 256
  · rw [dif_pos hm]
    exact concatenate_pair_apply_left (1 : Fin S256x768.rank) v0 v1 h (ix2 p m) rfl (ix2 p ⟨m.val, hm⟩)
      (fun b => match b with | ⟨0, _⟩ => rfl | ⟨1, _⟩ => rfl)
  · rw [dif_neg hm]
    exact concatenate_pair_apply_right (1 : Fin S256x768.rank) v0 v1 h (ix2 p m) rfl rfl
      (ix2 p ⟨m.val - 256, by have := m.isLt; omega⟩)
      (fun b hb => match b, hb with | ⟨0, _⟩, _ => rfl | ⟨1, _⟩, hb => absurd rfl hb)
      (by show m.val - 256 + 256 = m.val; omega)

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products

Each product contracts the left operand's columns with the right operand's rows: at the result index `i` and the
contraction coordinate `q` the left operand is read at `(i 0, q)` and the right one at `(q, i 1)`. The four facts are
stated per product, coordinate by coordinate. -/

theorem lhs_attn0_0 (i : S256x256.Idx) (q : dot_S256x768_S768x256_S256x256_1_0_0_1_n_n.contr.Idx) :
    (dot_S256x768_S768x256_S256x256_1_0_0_1_n_n.lhsIdx i q 0).val = (i 0).val := by
  unfold DotDims.lhsIdx
  rw [dif_neg (show ¬(0 : Fin S256x768.rank) ∈ dot_S256x768_S768x256_S256x256_1_0_0_1_n_n.lhsBatch by decide), dif_pos (show (0 : Fin S256x768.rank) ∈ dot_S256x768_S768x256_S256x256_1_0_0_1_n_n.lhsNonContracting by decide)]
  rfl
theorem lhs_attn0_1 (i : S256x256.Idx) (q : dot_S256x768_S768x256_S256x256_1_0_0_1_n_n.contr.Idx) :
    (dot_S256x768_S768x256_S256x256_1_0_0_1_n_n.lhsIdx i q 1).val = (q ⟨0, by decide⟩).val :=
  dot_S256x768_S768x256_S256x256_1_0_0_1_n_n.lhsIdx_val_of_single rfl i q
theorem rhs_attn0_0 (i : S256x256.Idx) (q : dot_S256x768_S768x256_S256x256_1_0_0_1_n_n.contr.Idx) :
    (dot_S256x768_S768x256_S256x256_1_0_0_1_n_n.rhsIdx i q 0).val = (q ⟨0, by decide⟩).val :=
  dot_S256x768_S768x256_S256x256_1_0_0_1_n_n.rhsIdx_val_of_single rfl i q
theorem rhs_attn0_1 (i : S256x256.Idx) (q : dot_S256x768_S768x256_S256x256_1_0_0_1_n_n.contr.Idx) :
    (dot_S256x768_S768x256_S256x256_1_0_0_1_n_n.rhsIdx i q 1).val = (i 1).val := by
  unfold DotDims.rhsIdx
  rw [dif_neg (show ¬(1 : Fin S768x256.rank) ∈ dot_S256x768_S768x256_S256x256_1_0_0_1_n_n.rhsBatch by decide), dif_pos (show (1 : Fin S768x256.rank) ∈ dot_S256x768_S768x256_S256x256_1_0_0_1_n_n.rhsNonContracting by decide)]
  rfl

theorem lhs_attn1_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_attn1_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_attn1_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_attn1_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The first product into the zero splat, at `(p, q)`: the sum over the 768 joined columns. -/
theorem matmul0_apply (A : FVec Ideal S256x768 .bf16) (B : FVec Ideal S768x256 .bf16) (p q : Fin 256) :
    matmul dot_S256x768_S768x256_S256x256_1_0_0_1_n_n none A B (constant (F := Ideal) S256x256 .f32 0x00000000#32) (ix2 p q)
      = ∑ k : Fin 768, A (ix2 p k) * B (ix2 k q) :=
  Cert.LibPlainMatmul.matmul_zero_apply dot_S256x768_S768x256_S256x256_1_0_0_1_n_n none rfl rfl
    lhs_attn0_0 lhs_attn0_1 rhs_attn0_0 rhs_attn0_1 A B p q

/-- The second product into the zero splat, at `(p, q)`: the sum over the 256 hidden columns. -/
theorem matmul1_apply (A : FVec Ideal S256x256 .bf16) (B : FVec Ideal S256x256 .bf16) (p q : Fin 256) :
    matmul dot_S256x256_S256x256_S256x256_1_0_0_1_n_n none A B (constant (F := Ideal) S256x256 .f32 0x00000000#32) (ix2 p q)
      = ∑ k : Fin 256, A (ix2 p k) * B (ix2 k q) :=
  Cert.LibPlainMatmul.matmul_zero_apply dot_S256x256_S256x256_S256x256_1_0_0_1_n_n none rfl rfl
    lhs_attn1_0 lhs_attn1_1 rhs_attn1_0 rhs_attn1_1 A B p q

/-- The first affine layer at `(p, q)`: the product with the matrix stored transposed, plus the bias row. -/
theorem layer0_apply (A : FVec Ideal S256x768 .bf16) (W : FVec Ideal S768x256 .bf16) (B : FVec Ideal S1x256 .f32)
    (h1 : S768x256.ShapeCasts S768x256) (h2 : S1x256.ShapeCasts S1x256) (h3 : S1x256.Broadcasts S256x256) (p q : Fin 256) :
    addf (matmul dot_S256x768_S768x256_S256x256_1_0_0_1_n_n none A (shapeCast S768x256 W h1)
        (constant (F := Ideal) S256x256 .f32 0x00000000#32)) (broadcastTo S256x256 (shapeCast S1x256 B h2) h3) (ix2 p q)
      = lin (tr W) (bias2 B) (fun k => A (ix2 p k)) q := by
  rw [shapeCast_self, shapeCast_self, addf_apply, matmul0_apply, broadcastTo_1b_ab_apply]
  rfl

/-- The second affine layer at `(p, q)`. -/
theorem layer1_apply (A : FVec Ideal S256x256 .bf16) (W : FVec Ideal S256x256 .bf16) (B : FVec Ideal S1x256 .f32)
    (h1 : S256x256.ShapeCasts S256x256) (h2 : S1x256.ShapeCasts S1x256) (h3 : S1x256.Broadcasts S256x256) (p q : Fin 256) :
    addf (matmul dot_S256x256_S256x256_S256x256_1_0_0_1_n_n none A (shapeCast S256x256 W h1)
        (constant (F := Ideal) S256x256 .f32 0x00000000#32)) (broadcastTo S256x256 (shapeCast S1x256 B h2) h3) (ix2 p q)
      = lin (tr W) (bias2 B) (fun k => A (ix2 p k)) q := by
  rw [shapeCast_self, shapeCast_self, addf_apply, matmul1_apply, broadcastTo_1b_ab_apply]
  rfl

/-! ## The row reductions -/

/-- The index over row `p` with column `k` inserted. -/
theorem lift_row (h : S256x256.Reduces [1] S256) (p k : Fin 256) : h.lift (ix1 p) k = ix2 p k :=
  funext fun c => Fin.ext (match c with | ⟨0, _⟩ => rfl | ⟨1, _⟩ => rfl)

/-- The lane maximum from the pattern of `-∞`, then the maximum with that pattern, at row `p`. -/
theorem rowMax_apply (L : FVec Ideal S256x256 .f32) (h : S256x256.Reduces [1] S256) (hφ : FKind.Formats .f32)
    (hacc : (0xFF800000#32 : BitVec FTy.f32.bits) = FKind.maximumf.neutral .f32 hφ) (p : Fin 256) :
    maximumf (broadcast S256 (Scalar.ofBits (F := Ideal) .f32 0xFF800000#32))
        (multiReduction (F := Ideal) .maximumf [1] S256 L 0xFF800000#32 h hφ hacc) (ix1 p)
      = rowMax (fun k => L (ix2 p k)) := by
  rw [maximumf_apply]
  refine (congrArg (max _) (Ideal.multiReduction_maximumf_single L _ h hφ hacc (ix1 p))).trans ?_
  have e : (L ∘ h.lift (ix1 p)) = fun k : Fin 256 => L (ix2 p k) := funext fun k => congrArg L (lift_row h p k)
  rw [e]
  rfl

/-- The lane sum at row `p`. -/
theorem rowSum_apply (E : FVec Ideal S256x256 .f32) (h : S256x256.Reduces [1] S256) (hφ : FKind.Formats .f32)
    (hacc : (0x00000000#32 : BitVec FTy.f32.bits) = FKind.add.neutral .f32 hφ) (p : Fin 256) :
    multiReduction (F := Ideal) .add [1] S256 E 0x00000000#32 h hφ hacc (ix1 p) = ∑ k : Fin 256, E (ix2 p k) := by
  refine (Ideal.multiReduction_add_single E _ h hφ hacc (ix1 p)).trans ?_
  exact Finset.sum_congr rfl fun k _ => congrArg E (lift_row h p k)

/-- A row statistic kept as a column and spread over the row, at `(p, q)`: the statistic of row `p`. -/
theorem keep_apply (c : FVec Ideal S256 .f32) (hc : S256.ShapeCasts S256x1) (hb : S256x1.Broadcasts S256x256) (p q : Fin 256) :
    broadcastTo S256x256 (shapeCast S256x1 c hc) hb (ix2 p q) = c (ix1 p) := by
  rw [broadcastTo_a1_ab_apply, shapeCast_a_a1_apply]

/-! ## The softmax along a row -/

/-- A block divided by its lane sums kept as a column, at `(p, q)`. -/
theorem div_rowSum_apply (E : FVec Ideal S256x256 .f32) (hr : S256x256.Reduces [1] S256) (hc : S256.ShapeCasts S256x1)
    (hb : S256x1.Broadcasts S256x256) (hφ : FKind.Formats .f32)
    (ha : (0x00000000#32 : BitVec FTy.f32.bits) = FKind.add.neutral .f32 hφ) (p q : Fin 256) :
    divf E (broadcastTo S256x256 (shapeCast S256x1 (multiReduction (F := Ideal) .add [1] S256 E 0x00000000#32 hr hφ ha) hc) hb)
        (ix2 p q)
      = Ideal.div (E (ix2 p q)) (∑ k : Fin 256, E (ix2 p k)) := by
  rw [divf_apply, keep_apply, rowSum_apply]

/-- The exponential of a block less its row maxima kept as a column, at `(p, k)`. -/
theorem expm_apply (L : FVec Ideal S256x256 .f32) (hr : S256x256.Reduces [1] S256) (hc : S256.ShapeCasts S256x1)
    (hb : S256x1.Broadcasts S256x256) (hφ : FKind.Formats .f32)
    (hm : (0xFF800000#32 : BitVec FTy.f32.bits) = FKind.maximumf.neutral .f32 hφ) (p k : Fin 256) :
    exp (subf L (broadcastTo S256x256 (shapeCast S256x1 (maximumf (broadcast S256 (Scalar.ofBits (F := Ideal) .f32 0xFF800000#32))
        (multiReduction (F := Ideal) .maximumf [1] S256 L 0xFF800000#32 hr hφ hm)) hc) hb)) (ix2 p k)
      = Ideal.exp (L (ix2 p k) - rowMax (fun j => L (ix2 p j))) := by
  change Ideal.exp (L (ix2 p k) - _) = _
  rw [keep_apply, rowMax_apply]

/-- The softmax as the body spells it, at `(p, q)`: the softmax of row `p`. -/
theorem softmax_apply (L : FVec Ideal S256x256 .f32) (hr : S256x256.Reduces [1] S256) (hc : S256.ShapeCasts S256x1)
    (hb : S256x1.Broadcasts S256x256) (hφ : FKind.Formats .f32)
    (hm : (0xFF800000#32 : BitVec FTy.f32.bits) = FKind.maximumf.neutral .f32 hφ)
    (ha : (0x00000000#32 : BitVec FTy.f32.bits) = FKind.add.neutral .f32 hφ) (p q : Fin 256) :
    divf (exp (subf L (broadcastTo S256x256 (shapeCast S256x1 (maximumf (broadcast S256 (Scalar.ofBits (F := Ideal) .f32 0xFF800000#32))
          (multiReduction (F := Ideal) .maximumf [1] S256 L 0xFF800000#32 hr hφ hm)) hc) hb)))
        (broadcastTo S256x256 (shapeCast S256x1 (multiReduction (F := Ideal) .add [1] S256
          (exp (subf L (broadcastTo S256x256 (shapeCast S256x1 (maximumf (broadcast S256 (Scalar.ofBits (F := Ideal) .f32 0xFF800000#32))
            (multiReduction (F := Ideal) .maximumf [1] S256 L 0xFF800000#32 hr hφ hm)) hc) hb))) 0x00000000#32 hr hφ ha) hc) hb)
        (ix2 p q)
      = softmax (fun k => L (ix2 p k)) q := by
  refine (div_rowSum_apply _ hr hc hb hφ ha p q).trans ?_
  unfold softmax
  exact congrArg₂ Ideal.div (expm_apply L hr hc hb hφ hm p q)
    (Finset.sum_congr rfl fun k _ => expm_apply L hr hc hb hφ hm p k)

/-- The attention payload at `(p, q)`: the softmax of the two-layer map of row `p` of `[x | h]`, at `q`. -/
theorem pay2_apply (v0 : Vec Ideal S256x256 .f32) (v1 : Vec Ideal S256x512 .f32) (v5 : Vec Ideal S768x256 .bf16)
    (v8 : Vec Ideal S1x256 .f32) (v15 : Vec Ideal S256x256 .bf16) (v18 : Vec Ideal S1x256 .f32) (p q : Fin 256) :
    k0_pay2 (F := Ideal) v0 v1 v5 v8 v15 v18 (ix2 p q)
      = attnRow (tr v5) (bias2 v8) (tr v15) (bias2 v18) (row v0 p) (row v1 p) q := by
  unfold k0_pay2
  refine (softmax_apply _ _ _ _ _ _ _ p q).trans ?_
  unfold attnRow
  refine congrArg (fun v => softmax v q) (funext fun k => ?_)
  refine (layer1_apply _ v15 v18 _ _ _ p k).trans ?_
  refine congrArg (fun v => lin (tr v15) (bias2 v18) v k) (funext fun j => ?_)
  refine (congrArg (fun t => max t zeroW) (layer0_apply _ v5 v8 _ _ _ p j)).trans ?_
  refine congrArg (fun v => relu (lin (tr v5) (bias2 v8) v) j) (funext fun m => ?_)
  exact concat_apply v0 v1 Facts₀.concatenates_S256x256_S256x512_S256x768_d1 p m

/-- The attended input at `(p, k)`: `x` times the attention. -/
theorem pay3_apply (v0 : Vec Ideal S256x256 .f32) (v1 : Vec Ideal S256x512 .f32) (v5 : Vec Ideal S768x256 .bf16)
    (v8 : Vec Ideal S1x256 .f32) (v15 : Vec Ideal S256x256 .bf16) (v18 : Vec Ideal S1x256 .f32) (p k : Fin 256) :
    k0_pay3 (F := Ideal) v0 v1 v5 v8 v15 v18 (ix2 p k)
      = xAtt (attnRow (tr v5) (bias2 v8) (tr v15) (bias2 v18) (row v0 p) (row v1 p)) (row v0 p) k := by
  unfold k0_pay3 xAtt
  exact congrArg (fun t => v0 (ix2 p k) * t) (pay2_apply v0 v1 v5 v8 v15 v18 p k)

/-- A shape cast to the same shape changes nothing. -/
theorem pay4_eq (v35 : Vec Ideal S256x2048 .bf16) : k0_pay4 (F := Ideal) v35 = v35 := by
  unfold k0_pay4
  exact shapeCast_self v35 _

end Cert.KernelRows

end
-- ==== Proof.KernelCell.lean ====
/-
  The kernel body's LSTM cell and output head, read at an index of a 256-row block at the ideal values.

  The gate pre-activations are the attended input times the input weights plus the hidden block times the hidden weights
  (both stored transposed), plus the two bias rows; the four gates are the four 512-column slices; the new cell state is
  `σ(f) · c + σ(i) · tanh(g)` and the new hidden state `σ(o) · tanh(c')`; the head multiplies the new hidden state by
  the first head matrix, adds the bias, rectifies, multiplies by the one-column second matrix, adds its bias and applies
  the logistic function.
-/
import proofs.«125494_j63556926046386_1_alg».proof.Proof.Gen.KernelIdeal.Skeleton
import proofs.«125494_j63556926046386_1_alg».proof.Proof.CellSpec
import proofs.«125494_j63556926046386_1_alg».proof.Proof.LibPlainMatmul
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx
open Cert.KernelIdeal Cert.KernelIdeal.Gen Cert.Cell

namespace Cert.KernelRows

/-! ## The four matrix products: one contracted axis, the left rows and the right columns kept -/

theorem dotIH_lhs0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem dotIH_lhs1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem dotIH_rhs0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem dotIH_rhs1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

theorem dotHH_lhs0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem dotHH_lhs1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem dotHH_rhs0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem dotHH_rhs1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

theorem dotO0_lhs0 (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem dotO0_lhs1 (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem dotO0_rhs0 (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem dotO0_rhs1 (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

theorem dotO1_lhs0 (i : S256x1.Idx) (q : dot_S256x512_S512x1_S256x1_1_0_0_1_n_n.contr.Idx) :
    (dot_S256x512_S512x1_S256x1_1_0_0_1_n_n.lhsIdx i q 0).val = (i 0).val := by
  unfold DotDims.lhsIdx
  rw [dif_neg (show ¬(0 : Fin S256x512.rank) ∈ dot_S256x512_S512x1_S256x1_1_0_0_1_n_n.lhsBatch by decide), dif_pos (show (0 : Fin S256x512.rank) ∈ dot_S256x512_S512x1_S256x1_1_0_0_1_n_n.lhsNonContracting by decide)]
  rfl
theorem dotO1_lhs1 (i : S256x1.Idx) (q : dot_S256x512_S512x1_S256x1_1_0_0_1_n_n.contr.Idx) :
    (dot_S256x512_S512x1_S256x1_1_0_0_1_n_n.lhsIdx i q 1).val = (q ⟨0, by decide⟩).val :=
  dot_S256x512_S512x1_S256x1_1_0_0_1_n_n.lhsIdx_val_of_single rfl i q
theorem dotO1_rhs0 (i : S256x1.Idx) (q : dot_S256x512_S512x1_S256x1_1_0_0_1_n_n.contr.Idx) :
    (dot_S256x512_S512x1_S256x1_1_0_0_1_n_n.rhsIdx i q 0).val = (q ⟨0, by decide⟩).val :=
  dot_S256x512_S512x1_S256x1_1_0_0_1_n_n.rhsIdx_val_of_single rfl i q
theorem dotO1_rhs1 (i : S256x1.Idx) (q : dot_S256x512_S512x1_S256x1_1_0_0_1_n_n.contr.Idx) :
    (dot_S256x512_S512x1_S256x1_1_0_0_1_n_n.rhsIdx i q 1).val = (i 1).val := by
  unfold DotDims.rhsIdx
  rw [dif_neg (show ¬(1 : Fin S512x1.rank) ∈ dot_S256x512_S512x1_S256x1_1_0_0_1_n_n.rhsBatch by decide), dif_pos (show (1 : Fin S512x1.rank) ∈ dot_S256x512_S512x1_S256x1_1_0_0_1_n_n.rhsNonContracting by decide)]
  rfl

/-- The attended input times the input weights, at `(p, n)`. -/
theorem mmIH_apply (A : FVec Ideal S256x256 .bf16) (B : FVec Ideal S256x2048 .bf16) (p : Fin 256) (n : Fin 2048) :
    matmul dot_S256x256_S256x2048_S256x2048_1_0_0_1_n_n none A B (constant (F := Ideal) S256x2048 .f32 0x00000000#32) (ix2 p n)
      = ∑ k : Fin 256, A (ix2 p k) * B (ix2 k n) :=
  Cert.LibPlainMatmul.matmul_zero_apply dot_S256x256_S256x2048_S256x2048_1_0_0_1_n_n none rfl rfl dotIH_lhs0 dotIH_lhs1 dotIH_rhs0 dotIH_rhs1 A B p n

/-- The hidden block times the hidden weights, at `(p, n)`. -/
theorem mmHH_apply (A : FVec Ideal S256x512 .bf16) (B : FVec Ideal S512x2048 .bf16) (p : Fin 256) (n : Fin 2048) :
    matmul dot_S256x512_S512x2048_S256x2048_1_0_0_1_n_n none A B (constant (F := Ideal) S256x2048 .f32 0x00000000#32) (ix2 p n)
      = ∑ k : Fin 512, A (ix2 p k) * B (ix2 k n) :=
  Cert.LibPlainMatmul.matmul_zero_apply dot_S256x512_S512x2048_S256x2048_1_0_0_1_n_n none rfl rfl dotHH_lhs0 dotHH_lhs1 dotHH_rhs0 dotHH_rhs1 A B p n

/-- The new hidden state times the first head matrix, at `(p, n)`. -/
theorem mmO0_apply (A : FVec Ideal S256x512 .bf16) (B : FVec Ideal S512x512 .bf16) (p : Fin 256) (n : Fin 512) :
    matmul dot_S256x512_S512x512_S256x512_1_0_0_1_n_n none A B (constant (F := Ideal) S256x512 .f32 0x00000000#32) (ix2 p n)
      = ∑ k : Fin 512, A (ix2 p k) * B (ix2 k n) :=
  Cert.LibPlainMatmul.matmul_zero_apply dot_S256x512_S512x512_S256x512_1_0_0_1_n_n none rfl rfl dotO0_lhs0 dotO0_lhs1 dotO0_rhs0 dotO0_rhs1 A B p n

/-- The rectified layer times the one-column second head matrix, at `(p, n)`. -/
theorem mmO1_apply (A : FVec Ideal S256x512 .bf16) (B : FVec Ideal S512x1 .bf16) (p : Fin 256) (n : Fin 1) :
    matmul dot_S256x512_S512x1_S256x1_1_0_0_1_n_n none A B (constant (F := Ideal) S256x1 .f32 0x00000000#32) (ix2 p n)
      = ∑ k : Fin 512, A (ix2 p k) * B (ix2 k n) :=
  Cert.LibPlainMatmul.matmul_zero_apply dot_S256x512_S512x1_S256x1_1_0_0_1_n_n none rfl rfl dotO1_lhs0 dotO1_lhs1 dotO1_rhs0 dotO1_rhs1 A B p n

/-! ## A gate: the 512 columns from `o` on -/

/-- The 512-column slice from column `o` reads, at `(p, j)`, the source at `(p, o + j)`. -/
theorem gate_slice_apply (o : ℕ) (ho : o + 512 ≤ 2048) (X : FVec Ideal S256x2048 .f32) (h : S256x2048.Slices ![0, o] S256x512)
    (p : Fin 256) (j : Fin 512) :
    extractStridedSlice S256x512 ![0, o] X h (ix2 p j) = X (ix2 p (gateAt o ho j)) :=
  slice2_axis1_apply o X h p j (gateAt o ho j) rfl

/-! ## The payloads -/

/-- The gate pre-activations at `(p, n)`. -/
theorem pay5_apply (v1 : Vec Ideal S256x512 .f32) (v34 : FVec Ideal S256x256 .bf16) (v36 : FVec Ideal S256x2048 .bf16)
    (v39 : Vec Ideal S512x2048 .bf16) (v43 : Vec Ideal S1x2048 .f32) (v47 : Vec Ideal S1x2048 .f32) (p : Fin 256) (n : Fin 2048) :
    k0_pay5 (F := Ideal) v1 v34 v36 v39 v43 v47 (ix2 p n)
      = gates (tr v36) (bias2 v43) (tr v39) (bias2 v47) (row v34 p) (row v1 p) n := by
  unfold k0_pay5
  show matmul dot_S256x256_S256x2048_S256x2048_1_0_0_1_n_n none v34 v36 (constant (F := Ideal) S256x2048 .f32 0x00000000#32) (ix2 p n)
      + matmul dot_S256x512_S512x2048_S256x2048_1_0_0_1_n_n none (truncf .bf16 v1 bitsLt_bf16_f32) (shapeCast S512x2048 v39 shapeCasts_S512x2048_S512x2048)
          (constant (F := Ideal) S256x2048 .f32 0x00000000#32) (ix2 p n)
      + broadcastTo S256x2048 (shapeCast S1x2048 v43 shapeCasts_S1x2048_S1x2048) broadcasts_S1x2048_S256x2048 (ix2 p n)
      + broadcastTo S256x2048 (shapeCast S1x2048 v47 shapeCasts_S1x2048_S1x2048) broadcasts_S1x2048_S256x2048 (ix2 p n) = _
  rw [shapeCast_self, shapeCast_self, shapeCast_self, mmIH_apply, mmHH_apply, broadcastTo_1b_ab_apply, broadcastTo_1b_ab_apply]
  rfl

/-- The new cell state at `(p, j)`. -/
theorem pay6_apply (v1 v2 : Vec Ideal S256x512 .f32) (v34 : FVec Ideal S256x256 .bf16) (v36 : FVec Ideal S256x2048 .bf16)
    (v39 : Vec Ideal S512x2048 .bf16) (v43 : Vec Ideal S1x2048 .f32) (v47 : Vec Ideal S1x2048 .f32) (p : Fin 256) (j : Fin 512) :
    k0_pay6 (F := Ideal) v1 v2 v34 v36 v39 v43 v47 (ix2 p j)
      = cNew (gates (tr v36) (bias2 v43) (tr v39) (bias2 v47) (row v34 p) (row v1 p)) (row v2 p) j := by
  unfold k0_pay6
  show Ideal.logistic (extractStridedSlice S256x512 ![0, 512] (k0_pay5 (F := Ideal) v1 v34 v36 v39 v43 v47) slices_S256x2048_o0_512_S256x512 (ix2 p j))
        * v2 (ix2 p j)
      + Ideal.logistic (extractStridedSlice S256x512 ![0, 0] (k0_pay5 (F := Ideal) v1 v34 v36 v39 v43 v47) slices_S256x2048_o0_0_S256x512 (ix2 p j))
        * Ideal.tanh (extractStridedSlice S256x512 ![0, 1024] (k0_pay5 (F := Ideal) v1 v34 v36 v39 v43 v47) slices_S256x2048_o0_1024_S256x512 (ix2 p j)) = _
  rw [gate_slice_apply 512 (by decide), gate_slice_apply 0 (by decide), gate_slice_apply 1024 (by decide),
    pay5_apply, pay5_apply, pay5_apply]
  rfl

/-- The new hidden state at `(p, j)`. -/
theorem pay7_apply (v1 v2 : Vec Ideal S256x512 .f32) (v34 : FVec Ideal S256x256 .bf16) (v36 : FVec Ideal S256x2048 .bf16)
    (v39 : Vec Ideal S512x2048 .bf16) (v43 : Vec Ideal S1x2048 .f32) (v47 : Vec Ideal S1x2048 .f32) (p : Fin 256) (j : Fin 512) :
    k0_pay7 (F := Ideal) v1 v2 v34 v36 v39 v43 v47 (ix2 p j)
      = hNew (gates (tr v36) (bias2 v43) (tr v39) (bias2 v47) (row v34 p) (row v1 p)) (row v2 p) j := by
  unfold k0_pay7
  show Ideal.logistic (extractStridedSlice S256x512 ![0, 1536] (k0_pay5 (F := Ideal) v1 v34 v36 v39 v43 v47) slices_S256x2048_o0_1536_S256x512 (ix2 p j))
        * Ideal.tanh (k0_pay6 (F := Ideal) v1 v2 v34 v36 v39 v43 v47 (ix2 p j)) = _
  rw [gate_slice_apply 1536 (by decide), pay5_apply, pay6_apply]
  rfl

/-- The head's one product before its bias, at `(p, z)`: the rectified first layer of row `p`'s new hidden state against the second matrix. -/
theorem pay8_apply (v1 v2 : Vec Ideal S256x512 .f32) (v34 : FVec Ideal S256x256 .bf16) (v36 : FVec Ideal S256x2048 .bf16)
    (v39 : Vec Ideal S512x2048 .bf16) (v43 : Vec Ideal S1x2048 .f32) (v47 : Vec Ideal S1x2048 .f32)
    (v65 : Vec Ideal S512x512 .bf16) (v68 : Vec Ideal S1x512 .f32) (v75 : Vec Ideal S512x1 .bf16) (p : Fin 256) (z : Fin 1) :
    k0_pay8 (F := Ideal) v1 v2 v34 v36 v39 v43 v47 v65 v68 v75 (ix2 p z)
      = ∑ k : Fin 512, relu (lin (tr v65) (bias2 v68)
          (hNew (gates (tr v36) (bias2 v43) (tr v39) (bias2 v47) (row v34 p) (row v1 p)) (row v2 p))) k * tr v75 z k := by
  unfold k0_pay8
  refine (mmO1_apply _ _ p z).trans (Finset.sum_congr rfl fun k _ => ?_)
  show max (matmul dot_S256x512_S512x512_S256x512_1_0_0_1_n_n none (truncf .bf16 (k0_pay7 (F := Ideal) v1 v2 v34 v36 v39 v43 v47) bitsLt_bf16_f32)
            (shapeCast S512x512 v65 shapeCasts_S512x512_S512x512) (constant (F := Ideal) S256x512 .f32 0x00000000#32) (ix2 p k)
          + broadcastTo S256x512 (shapeCast S1x512 v68 shapeCasts_S1x512_S1x512) broadcasts_S1x512_S256x512 (ix2 p k))
        (Ideal.ofBits .f32 0x00000000#32)
      * shapeCast S512x1 v75 shapeCasts_S512x1_S512x1 (ix2 k z) = _
  rw [shapeCast_self, shapeCast_self, shapeCast_self, mmO0_apply, broadcastTo_1b_ab_apply]
  simp only [truncf_apply, pay7_apply]
  rfl

/-- The output at `(p, 0)`: the head of row `p`'s new hidden state. -/
theorem pay1_pay8_apply (v1 v2 : Vec Ideal S256x512 .f32) (v34 : FVec Ideal S256x256 .bf16) (v36 : FVec Ideal S256x2048 .bf16)
    (v39 : Vec Ideal S512x2048 .bf16) (v43 : Vec Ideal S1x2048 .f32) (v47 : Vec Ideal S1x2048 .f32)
    (v65 : Vec Ideal S512x512 .bf16) (v68 : Vec Ideal S1x512 .f32) (v75 : Vec Ideal S512x1 .bf16) (v78 : Vec Ideal S1x1 .f32)
    (p : Fin 256) (z : Fin 1) :
    k0_pay1 (F := Ideal) (k0_pay8 (F := Ideal) v1 v2 v34 v36 v39 v43 v47 v65 v68 v75) v78 (ix2 p z)
      = head (tr v65) (bias2 v68) (tr v75) (bias2 v78)
          (hNew (gates (tr v36) (bias2 v43) (tr v39) (bias2 v47) (row v34 p) (row v1 p)) (row v2 p)) := by
  obtain rfl : z = 0 := Subsingleton.elim _ _
  unfold k0_pay1
  show Ideal.logistic (k0_pay8 (F := Ideal) v1 v2 v34 v36 v39 v43 v47 v65 v68 v75 (ix2 p 0)
      + broadcastTo S256x1 (shapeCast S1x1 v78 shapeCasts_S1x1_S1x1) broadcasts_S1x1_S256x1 (ix2 p 0)) = _
  rw [shapeCast_self, broadcastTo_1b_ab_apply, pay8_apply]
  rfl

end Cert.KernelRows

end
-- ==== Proof.Blocks.lean ====
/-
  From blocks to arrays.

  The kernel runs on a grid of 32 points; point `t` sees rows `256 t … 256 t + 255` of `x`, `h`, `c` and the whole of
  every weight array (the weight matrices transposed by the host beforehand, the bias vectors recast as one row), and
  writes back rows `256 t … 256 t + 255` of each of the four results. Since every result row is a function of the same
  row of the inputs, what point `t` writes back is block `t` of the whole-array function of CellSpec.lean; the 32 blocks
  tile the 8192 rows, so after the run each result array is that function of the arguments.
-/
import proofs.«125494_j63556926046386_1_alg».proof.Proof.KernelValue
import proofs.«125494_j63556926046386_1_alg».proof.Proof.CellSpec
import proofs.«125494_j63556926046386_1_alg».proof.Proof.KernelAttn
import proofs.«125494_j63556926046386_1_alg».proof.Proof.KernelCell
import Idealize.ShloMosaic.Lib.Pipeline.Value
import Idealize.ShloMosaic.Lib.ValueLayout
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.Cell

namespace Cert.KernelBlocks

variable (m : (ℓ : Loc nD τ sig) → Buf (Elt Ideal) ℓ) (ρ : Dev nD → PrngReg)

/-! ## Where each window's block sits -/

/-- The row windows (the three inputs and the four results) move one block down per point and stay at column block 0. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0) :=
  (by decide +kernel : ∀ t : Fin grid0.N, _)

/-- The weight windows stay at block (0, 0): every point sees the whole array. -/
theorem idx_weights : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Row `p` of block `t` is row `256 t + p` of the array. -/
def rowOf (t : Fin cfg0.N) (p : Fin 256) : Fin 8192 :=
  ⟨256 * t.val + p.val, by have h1 := t.isLt; have h2 : cfg0.N = 32 := N_0; have h3 := p.isLt; omega⟩

/-! ## The input blocks read at an index -/

theorem blkX_apply (c : Dev nD) (t : Fin cfg0.N) (p : Fin 256) (k : Fin 256) :
    iblk m c 0 t (ix2 p k) = m ((c : Thread nD τ).loc main_arg0) (ix2 (rowOf t p) k) := by
  show V m c main_arg0 (((cfg0.win 0).blk t).view.emb (ix2 p k)) = _
  rw [V_main_arg0]
  refine congrArg _ (funext fun a => Fin.ext ?_)
  obtain ⟨⟨e0, e1⟩, -⟩ := idx_rows t
  match a with
  | ⟨0, _⟩ => show win0_0.index t (0 : Fin 2) * 256 + 1 * p.val = 256 * t.val + p.val; omega
  | ⟨1, _⟩ => show win0_0.index t (1 : Fin 2) * 256 + 1 * k.val = k.val; omega

/-- The first attention matrix as the region finds it: the argument transposed (and recast, which changes nothing). -/
theorem V_aw0 (c : Dev nD) :
    @Eq (S768x256.Idx → EReal) (V m c main_v1)
      (truncf (F := Ideal) .bf16 (transpose S768x256 [1, 0] (m ((c : Thread nD τ).loc main_arg3)) transposes_S256x768_S768x256_1_0) bitsLt_bf16_f32) := by
  dsimp only [Gen.V, Gen.hostOps0]; after_results

theorem blkAW0_apply (c : Dev nD) (t : Fin cfg0.N) (k : Fin 768) (j : Fin 256) :
    iblk m c 3 t (ix2 k j) = m ((c : Thread nD τ).loc main_arg3) (ix2 j k) := by
  show V m c main_v1 (((cfg0.win 3).blk t).view.emb (ix2 k j)) = _
  have e : ((cfg0.win 3).blk t).view.emb (ix2 k j) = ix2 k j := by
    funext a; apply Fin.ext
    obtain ⟨⟨e0, e1⟩, -⟩ := idx_weights t
    match a with
    | ⟨0, _⟩ => show win0_3.index t (0 : Fin 2) * 768 + 1 * k.val = k.val; omega
    | ⟨1, _⟩ => show win0_3.index t (1 : Fin 2) * 256 + 1 * j.val = j.val; omega
  rw [e, V_aw0]
  exact transpose_ix2_apply _ _ k j

theorem blkH_apply (c : Dev nD) (t : Fin cfg0.N) (p : Fin 256) (k : Fin 512) :
    iblk m c 1 t (ix2 p k) = m ((c : Thread nD τ).loc main_arg1) (ix2 (rowOf t p) k) := by
  show V m c main_arg1 (((cfg0.win 1).blk t).view.emb (ix2 p k)) = _
  rw [V_main_arg1]
  refine congrArg _ (funext fun a => Fin.ext ?_)
  obtain ⟨-, ⟨e0, e1⟩, -⟩ := idx_rows t
  match a with
  | ⟨0, _⟩ => show win0_1.index t (0 : Fin 2) * 256 + 1 * p.val = 256 * t.val + p.val; omega
  | ⟨1, _⟩ => show win0_1.index t (1 : Fin 2) * 512 + 1 * k.val = k.val; omega

theorem blkC_apply (c : Dev nD) (t : Fin cfg0.N) (p : Fin 256) (k : Fin 512) :
    iblk m c 2 t (ix2 p k) = m ((c : Thread nD τ).loc main_arg2) (ix2 (rowOf t p) k) := by
  show V m c main_arg2 (((cfg0.win 2).blk t).view.emb (ix2 p k)) = _
  rw [V_main_arg2]
  refine congrArg _ (funext fun a => Fin.ext ?_)
  obtain ⟨-, -, ⟨e0, e1⟩, -⟩ := idx_rows t
  match a with
  | ⟨0, _⟩ => show win0_2.index t (0 : Fin 2) * 256 + 1 * p.val = 256 * t.val + p.val; omega
  | ⟨1, _⟩ => show win0_2.index t (1 : Fin 2) * 512 + 1 * k.val = k.val; omega

/-! ## The weight blocks: the host's transposes and recasts read at an index -/

/-- The first attention bias as the region finds it: the vector as one row. -/
theorem V_ab0 (c : Dev nD) :
    @Eq (S1x256.Idx → EReal) (V m c main_v12) (shapeCast S1x256 (m ((c : Thread nD τ).loc main_arg4)) shapeCasts_S256_S1x256) := by
  dsimp only [Gen.V, Gen.hostOps0]; after_results; rfl

theorem blkAB0_apply (c : Dev nD) (t : Fin cfg0.N) (u : Fin 1) (j : Fin 256) :
    iblk m c 4 t (ix2 u j) = m ((c : Thread nD τ).loc main_arg4) (ix1 j) := by
  show V m c main_v12 (((cfg0.win 4).blk t).view.emb (ix2 u j)) = _
  have e : ((cfg0.win 4).blk t).view.emb (ix2 u j) = ix2 u j := by
    funext a; apply Fin.ext
    obtain ⟨-, ⟨e0, e1⟩, -⟩ := idx_weights t
    match a with
    | ⟨0, _⟩ => show win0_4.index t (0 : Fin 2) * 1 + 1 * u.val = u.val; omega
    | ⟨1, _⟩ => show win0_4.index t (1 : Fin 2) * 256 + 1 * j.val = j.val; omega
  rw [e, V_ab0]
  exact shapeCast_a_1a_apply _ _ u j

theorem V_aw1 (c : Dev nD) :
    @Eq (S256x256.Idx → EReal) (V m c main_v3)
      (truncf (F := Ideal) .bf16 (transpose S256x256 [1, 0] (m ((c : Thread nD τ).loc main_arg5)) transposes_S256x256_S256x256_1_0) bitsLt_bf16_f32) := by
  dsimp only [Gen.V, Gen.hostOps0]; after_results

theorem blkAW1_apply (c : Dev nD) (t : Fin cfg0.N) (k : Fin 256) (j : Fin 256) :
    iblk m c 5 t (ix2 k j) = m ((c : Thread nD τ).loc main_arg5) (ix2 j k) := by
  show V m c main_v3 (((cfg0.win 5).blk t).view.emb (ix2 k j)) = _
  have e : ((cfg0.win 5).blk t).view.emb (ix2 k j) = ix2 k j := by
    funext a; apply Fin.ext
    obtain ⟨-, -, ⟨e0, e1⟩, -⟩ := idx_weights t
    match a with
    | ⟨0, _⟩ => show win0_5.index t (0 : Fin 2) * 256 + 1 * k.val = k.val; omega
    | ⟨1, _⟩ => show win0_5.index t (1 : Fin 2) * 256 + 1 * j.val = j.val; omega
  rw [e, V_aw1]
  exact transpose_ix2_apply _ _ k j

theorem V_ab1 (c : Dev nD) :
    @Eq (S1x256.Idx → EReal) (V m c main_v13) (shapeCast S1x256 (m ((c : Thread nD τ).loc main_arg6)) shapeCasts_S256_S1x256) := by
  dsimp only [Gen.V, Gen.hostOps0]; after_results; rfl

theorem blkAB1_apply (c : Dev nD) (t : Fin cfg0.N) (u : Fin 1) (j : Fin 256) :
    iblk m c 6 t (ix2 u j) = m ((c : Thread nD τ).loc main_arg6) (ix1 j) := by
  show V m c main_v13 (((cfg0.win 6).blk t).view.emb (ix2 u j)) = _
  have e : ((cfg0.win 6).blk t).view.emb (ix2 u j) = ix2 u j := by
    funext a; apply Fin.ext
    obtain ⟨-, -, -, ⟨e0, e1⟩, -⟩ := idx_weights t
    match a with
    | ⟨0, _⟩ => show win0_6.index t (0 : Fin 2) * 1 + 1 * u.val = u.val; omega
    | ⟨1, _⟩ => show win0_6.index t (1 : Fin 2) * 256 + 1 * j.val = j.val; omega
  rw [e, V_ab1]
  exact shapeCast_a_1a_apply _ _ u j

theorem V_wih (c : Dev nD) :
    @Eq (S256x2048.Idx → EReal) (V m c main_v5)
      (truncf (F := Ideal) .bf16 (transpose S256x2048 [1, 0] (m ((c : Thread nD τ).loc main_arg7)) transposes_S2048x256_S256x2048_1_0) bitsLt_bf16_f32) := by
  dsimp only [Gen.V, Gen.hostOps0]; after_results

theorem blkWIH_apply (c : Dev nD) (t : Fin cfg0.N) (k : Fin 256) (n : Fin 2048) :
    iblk m c 7 t (ix2 k n) = m ((c : Thread nD τ).loc main_arg7) (ix2 n k) := by
  show V m c main_v5 (((cfg0.win 7).blk t).view.emb (ix2 k n)) = _
  have e : ((cfg0.win 7).blk t).view.emb (ix2 k n) = ix2 k n := by
    funext a; apply Fin.ext
    obtain ⟨-, -, -, -, ⟨e0, e1⟩, -⟩ := idx_weights t
    match a with
    | ⟨0, _⟩ => show win0_7.index t (0 : Fin 2) * 256 + 1 * k.val = k.val; omega
    | ⟨1, _⟩ => show win0_7.index t (1 : Fin 2) * 2048 + 1 * n.val = n.val; omega
  rw [e, V_wih]
  exact transpose_ix2_apply _ _ k n

theorem V_bih (c : Dev nD) :
    @Eq (S1x2048.Idx → EReal) (V m c main_v14) (shapeCast S1x2048 (m ((c : Thread nD τ).loc main_arg8)) shapeCasts_S2048_S1x2048) := by
  dsimp only [Gen.V, Gen.hostOps0]; after_results; rfl

theorem blkBIH_apply (c : Dev nD) (t : Fin cfg0.N) (u : Fin 1) (n : Fin 2048) :
    iblk m c 8 t (ix2 u n) = m ((c : Thread nD τ).loc main_arg8) (ix1 n) := by
  show V m c main_v14 (((cfg0.win 8).blk t).view.emb (ix2 u n)) = _
  have e : ((cfg0.win 8).blk t).view.emb (ix2 u n) = ix2 u n := by
    funext a; apply Fin.ext
    obtain ⟨-, -, -, -, -, ⟨e0, e1⟩, -⟩ := idx_weights t
    match a with
    | ⟨0, _⟩ => show win0_8.index t (0 : Fin 2) * 1 + 1 * u.val = u.val; omega
    | ⟨1, _⟩ => show win0_8.index t (1 : Fin 2) * 2048 + 1 * n.val = n.val; omega
  rw [e, V_bih]
  exact shapeCast_a_1a_apply _ _ u n

theorem V_whh (c : Dev nD) :
    @Eq (S512x2048.Idx → EReal) (V m c main_v7)
      (truncf (F := Ideal) .bf16 (transpose S512x2048 [1, 0] (m ((c : Thread nD τ).loc main_arg9)) transposes_S2048x512_S512x2048_1_0) bitsLt_bf16_f32) := by
  dsimp only [Gen.V, Gen.hostOps0]; after_results

theorem blkWHH_apply (c : Dev nD) (t : Fin cfg0.N) (k : Fin 512) (n : Fin 2048) :
    iblk m c 9 t (ix2 k n) = m ((c : Thread nD τ).loc main_arg9) (ix2 n k) := by
  show V m c main_v7 (((cfg0.win 9).blk t).view.emb (ix2 k n)) = _
  have e : ((cfg0.win 9).blk t).view.emb (ix2 k n) = ix2 k n := by
    funext a; apply Fin.ext
    obtain ⟨-, -, -, -, -, -, ⟨e0, e1⟩, -⟩ := idx_weights t
    match a with
    | ⟨0, _⟩ => show win0_9.index t (0 : Fin 2) * 512 + 1 * k.val = k.val; omega
    | ⟨1, _⟩ => show win0_9.index t (1 : Fin 2) * 2048 + 1 * n.val = n.val; omega
  rw [e, V_whh]
  exact transpose_ix2_apply _ _ k n

theorem V_bhh (c : Dev nD) :
    @Eq (S1x2048.Idx → EReal) (V m c main_v15) (shapeCast S1x2048 (m ((c : Thread nD τ).loc main_arg10)) shapeCasts_S2048_S1x2048) := by
  dsimp only [Gen.V, Gen.hostOps0]; after_results; rfl

theorem blkBHH_apply (c : Dev nD) (t : Fin cfg0.N) (u : Fin 1) (n : Fin 2048) :
    iblk m c 10 t (ix2 u n) = m ((c : Thread nD τ).loc main_arg10) (ix1 n) := by
  show V m c main_v15 (((cfg0.win 10).blk t).view.emb (ix2 u n)) = _
  have e : ((cfg0.win 10).blk t).view.emb (ix2 u n) = ix2 u n := by
    funext a; apply Fin.ext
    obtain ⟨-, -, -, -, -, -, -, ⟨e0, e1⟩, -⟩ := idx_weights t
    match a with
    | ⟨0, _⟩ => show win0_10.index t (0 : Fin 2) * 1 + 1 * u.val = u.val; omega
    | ⟨1, _⟩ => show win0_10.index t (1 : Fin 2) * 2048 + 1 * n.val = n.val; omega
  rw [e, V_bhh]
  exact shapeCast_a_1a_apply _ _ u n

theorem V_ow0 (c : Dev nD) :
    @Eq (S512x512.Idx → EReal) (V m c main_v9)
      (truncf (F := Ideal) .bf16 (transpose S512x512 [1, 0] (m ((c : Thread nD τ).loc main_arg11)) transposes_S512x512_S512x512_1_0) bitsLt_bf16_f32) := by
  dsimp only [Gen.V, Gen.hostOps0]; after_results

theorem blkOW0_apply (c : Dev nD) (t : Fin cfg0.N) (k : Fin 512) (j : Fin 512) :
    iblk m c 11 t (ix2 k j) = m ((c : Thread nD τ).loc main_arg11) (ix2 j k) := by
  show V m c main_v9 (((cfg0.win 11).blk t).view.emb (ix2 k j)) = _
  have e : ((cfg0.win 11).blk t).view.emb (ix2 k j) = ix2 k j := by
    funext a; apply Fin.ext
    obtain ⟨-, -, -, -, -, -, -, -, ⟨e0, e1⟩, -⟩ := idx_weights t
    match a with
    | ⟨0, _⟩ => show win0_11.index t (0 : Fin 2) * 512 + 1 * k.val = k.val; omega
    | ⟨1, _⟩ => show win0_11.index t (1 : Fin 2) * 512 + 1 * j.val = j.val; omega
  rw [e, V_ow0]
  exact transpose_ix2_apply _ _ k j

theorem V_ob0 (c : Dev nD) :
    @Eq (S1x512.Idx → EReal) (V m c main_v16) (shapeCast S1x512 (m ((c : Thread nD τ).loc main_arg12)) shapeCasts_S512_S1x512) := by
  dsimp only [Gen.V, Gen.hostOps0]; after_results; rfl

theorem blkOB0_apply (c : Dev nD) (t : Fin cfg0.N) (u : Fin 1) (j : Fin 512) :
    iblk m c 12 t (ix2 u j) = m ((c : Thread nD τ).loc main_arg12) (ix1 j) := by
  show V m c main_v16 (((cfg0.win 12).blk t).view.emb (ix2 u j)) = _
  have e : ((cfg0.win 12).blk t).view.emb (ix2 u j) = ix2 u j := by
    funext a; apply Fin.ext
    obtain ⟨-, -, -, -, -, -, -, -, -, ⟨e0, e1⟩, -⟩ := idx_weights t
    match a with
    | ⟨0, _⟩ => show win0_12.index t (0 : Fin 2) * 1 + 1 * u.val = u.val; omega
    | ⟨1, _⟩ => show win0_12.index t (1 : Fin 2) * 512 + 1 * j.val = j.val; omega
  rw [e, V_ob0]
  exact shapeCast_a_1a_apply _ _ u j

theorem V_ow1 (c : Dev nD) :
    @Eq (S512x1.Idx → EReal) (V m c main_v11)
      (truncf (F := Ideal) .bf16 (transpose S512x1 [1, 0] (m ((c : Thread nD τ).loc main_arg13)) transposes_S1x512_S512x1_1_0) bitsLt_bf16_f32) := by
  dsimp only [Gen.V, Gen.hostOps0]; after_results

theorem blkOW1_apply (c : Dev nD) (t : Fin cfg0.N) (k : Fin 512) (z : Fin 1) :
    iblk m c 13 t (ix2 k z) = m ((c : Thread nD τ).loc main_arg13) (ix2 z k) := by
  show V m c main_v11 (((cfg0.win 13).blk t).view.emb (ix2 k z)) = _
  have e : ((cfg0.win 13).blk t).view.emb (ix2 k z) = ix2 k z := by
    funext a; apply Fin.ext
    obtain ⟨-, -, -, -, -, -, -, -, -, -, ⟨e0, e1⟩, -⟩ := idx_weights t
    match a with
    | ⟨0, _⟩ => show win0_13.index t (0 : Fin 2) * 512 + 1 * k.val = k.val; omega
    | ⟨1, _⟩ => show win0_13.index t (1 : Fin 2) * 1 + 1 * z.val = z.val; omega
  rw [e, V_ow1]
  exact transpose_ix2_apply _ _ k z

theorem V_ob1 (c : Dev nD) :
    @Eq (S1x1.Idx → EReal) (V m c main_v17) (shapeCast S1x1 (m ((c : Thread nD τ).loc main_arg14)) shapeCasts_S1_S1x1) := by
  dsimp only [Gen.V, Gen.hostOps0]; after_results; rfl

theorem blkOB1_apply (c : Dev nD) (t : Fin cfg0.N) (u : Fin 1) (z : Fin 1) :
    iblk m c 14 t (ix2 u z) = m ((c : Thread nD τ).loc main_arg14) (ix1 z) := by
  show V m c main_v17 (((cfg0.win 14).blk t).view.emb (ix2 u z)) = _
  have e : ((cfg0.win 14).blk t).view.emb (ix2 u z) = ix2 u z := by
    funext a; apply Fin.ext
    obtain ⟨-, -, -, -, -, -, -, -, -, -, -, ⟨e0, e1⟩⟩ := idx_weights t
    match a with
    | ⟨0, _⟩ => show win0_14.index t (0 : Fin 2) * 1 + 1 * u.val = u.val; omega
    | ⟨1, _⟩ => show win0_14.index t (1 : Fin 2) * 1 + 1 * z.val = z.val; omega
  rw [e, V_ob1]
  exact shapeCast_a_1a_apply _ _ u z

/-! ## The arguments as launched, the blocks at a point, and the four result arrays -/

abbrev aX (c : Dev nD) : S8192x256.Idx → EReal := m ((c : Thread nD τ).loc main_arg0)
abbrev aH (c : Dev nD) : S8192x512.Idx → EReal := m ((c : Thread nD τ).loc main_arg1)
abbrev aC (c : Dev nD) : S8192x512.Idx → EReal := m ((c : Thread nD τ).loc main_arg2)
abbrev aAW0 (c : Dev nD) : S256x768.Idx → EReal := m ((c : Thread nD τ).loc main_arg3)
abbrev aAB0 (c : Dev nD) : S256.Idx → EReal := m ((c : Thread nD τ).loc main_arg4)
abbrev aAW1 (c : Dev nD) : S256x256.Idx → EReal := m ((c : Thread nD τ).loc main_arg5)
abbrev aAB1 (c : Dev nD) : S256.Idx → EReal := m ((c : Thread nD τ).loc main_arg6)
abbrev aWIH (c : Dev nD) : S2048x256.Idx → EReal := m ((c : Thread nD τ).loc main_arg7)
abbrev aBIH (c : Dev nD) : S2048.Idx → EReal := m ((c : Thread nD τ).loc main_arg8)
abbrev aWHH (c : Dev nD) : S2048x512.Idx → EReal := m ((c : Thread nD τ).loc main_arg9)
abbrev aBHH (c : Dev nD) : S2048.Idx → EReal := m ((c : Thread nD τ).loc main_arg10)
abbrev aOW0 (c : Dev nD) : S512x512.Idx → EReal := m ((c : Thread nD τ).loc main_arg11)
abbrev aOB0 (c : Dev nD) : S512.Idx → EReal := m ((c : Thread nD τ).loc main_arg12)
abbrev aOW1 (c : Dev nD) : S1x512.Idx → EReal := m ((c : Thread nD τ).loc main_arg13)
abbrev aOB1 (c : Dev nD) : S1.Idx → EReal := m ((c : Thread nD τ).loc main_arg14)

abbrev bX (c : Dev nD) (t : Fin cfg0.N) : Vec Ideal S256x256 .f32 := iblk m c 0 t
abbrev bH (c : Dev nD) (t : Fin cfg0.N) : Vec Ideal S256x512 .f32 := iblk m c 1 t
abbrev bC (c : Dev nD) (t : Fin cfg0.N) : Vec Ideal S256x512 .f32 := iblk m c 2 t
abbrev bAW0 (c : Dev nD) (t : Fin cfg0.N) : Vec Ideal S768x256 .bf16 := iblk m c 3 t
abbrev bAB0 (c : Dev nD) (t : Fin cfg0.N) : Vec Ideal S1x256 .f32 := iblk m c 4 t
abbrev bAW1 (c : Dev nD) (t : Fin cfg0.N) : Vec Ideal S256x256 .bf16 := iblk m c 5 t
abbrev bAB1 (c : Dev nD) (t : Fin cfg0.N) : Vec Ideal S1x256 .f32 := iblk m c 6 t
abbrev bWIH (c : Dev nD) (t : Fin cfg0.N) : Vec Ideal S256x2048 .bf16 := iblk m c 7 t
abbrev bBIH (c : Dev nD) (t : Fin cfg0.N) : Vec Ideal S1x2048 .f32 := iblk m c 8 t
abbrev bWHH (c : Dev nD) (t : Fin cfg0.N) : Vec Ideal S512x2048 .bf16 := iblk m c 9 t
abbrev bBHH (c : Dev nD) (t : Fin cfg0.N) : Vec Ideal S1x2048 .f32 := iblk m c 10 t
abbrev bOW0 (c : Dev nD) (t : Fin cfg0.N) : Vec Ideal S512x512 .bf16 := iblk m c 11 t
abbrev bOB0 (c : Dev nD) (t : Fin cfg0.N) : Vec Ideal S1x512 .f32 := iblk m c 12 t
abbrev bOW1 (c : Dev nD) (t : Fin cfg0.N) : Vec Ideal S512x1 .bf16 := iblk m c 13 t
abbrev bOB1 (c : Dev nD) (t : Fin cfg0.N) : Vec Ideal S1x1 .f32 := iblk m c 14 t

/-- The four results as functions of the arguments. -/
abbrev attnArr (c : Dev nD) : S8192x256.Idx → EReal :=
  Gattn (aX m c) (aH m c) (aAW0 m c) (aAB0 m c) (aAW1 m c) (aAB1 m c)
abbrev cArr (c : Dev nD) : S8192x512.Idx → EReal :=
  Gc (aX m c) (aH m c) (aC m c) (aAW0 m c) (aAB0 m c) (aAW1 m c) (aAB1 m c) (aWIH m c) (aBIH m c) (aWHH m c) (aBHH m c)
abbrev hArr (c : Dev nD) : S8192x512.Idx → EReal :=
  Gh (aX m c) (aH m c) (aC m c) (aAW0 m c) (aAB0 m c) (aAW1 m c) (aAB1 m c) (aWIH m c) (aBIH m c) (aWHH m c) (aBHH m c)
abbrev outArr (c : Dev nD) : S8192x1.Idx → EReal :=
  Gout (aX m c) (aH m c) (aC m c) (aAW0 m c) (aAB0 m c) (aAW1 m c) (aAB1 m c) (aWIH m c) (aBIH m c) (aWHH m c) (aBHH m c)
    (aOW0 m c) (aOB0 m c) (aOW1 m c) (aOB1 m c)

/-! ## Every point sees the same weights, and its own rows -/

theorem w_aw0 (c : Dev nD) (t : Fin cfg0.N) : tr (bAW0 m c t) = row (aAW0 m c) :=
  funext fun j => funext fun k => blkAW0_apply m c t k j
theorem w_ab0 (c : Dev nD) (t : Fin cfg0.N) : bias2 (bAB0 m c t) = bias1 (aAB0 m c) :=
  funext fun j => blkAB0_apply m c t 0 j
theorem w_aw1 (c : Dev nD) (t : Fin cfg0.N) : tr (bAW1 m c t) = row (aAW1 m c) :=
  funext fun j => funext fun k => blkAW1_apply m c t k j
theorem w_ab1 (c : Dev nD) (t : Fin cfg0.N) : bias2 (bAB1 m c t) = bias1 (aAB1 m c) :=
  funext fun j => blkAB1_apply m c t 0 j
theorem w_wih (c : Dev nD) (t : Fin cfg0.N) : tr (bWIH m c t) = row (aWIH m c) :=
  funext fun n => funext fun k => blkWIH_apply m c t k n
theorem w_bih (c : Dev nD) (t : Fin cfg0.N) : bias2 (bBIH m c t) = bias1 (aBIH m c) :=
  funext fun n => blkBIH_apply m c t 0 n
theorem w_whh (c : Dev nD) (t : Fin cfg0.N) : tr (bWHH m c t) = row (aWHH m c) :=
  funext fun n => funext fun k => blkWHH_apply m c t k n
theorem w_bhh (c : Dev nD) (t : Fin cfg0.N) : bias2 (bBHH m c t) = bias1 (aBHH m c) :=
  funext fun n => blkBHH_apply m c t 0 n
theorem w_ow0 (c : Dev nD) (t : Fin cfg0.N) : tr (bOW0 m c t) = row (aOW0 m c) :=
  funext fun j => funext fun k => blkOW0_apply m c t k j
theorem w_ob0 (c : Dev nD) (t : Fin cfg0.N) : bias2 (bOB0 m c t) = bias1 (aOB0 m c) :=
  funext fun j => blkOB0_apply m c t 0 j
theorem w_ow1 (c : Dev nD) (t : Fin cfg0.N) : tr (bOW1 m c t) = row (aOW1 m c) :=
  funext fun z => funext fun k => blkOW1_apply m c t k z
theorem w_ob1 (c : Dev nD) (t : Fin cfg0.N) : bias2 (bOB1 m c t) = bias1 (aOB1 m c) :=
  funext fun z => blkOB1_apply m c t 0 z

theorem r_x (c : Dev nD) (t : Fin cfg0.N) (p : Fin 256) : row (bX m c t) p = row (aX m c) (rowOf t p) :=
  funext fun k => blkX_apply m c t p k
theorem r_h (c : Dev nD) (t : Fin cfg0.N) (p : Fin 256) : row (bH m c t) p = row (aH m c) (rowOf t p) :=
  funext fun k => blkH_apply m c t p k
theorem r_c (c : Dev nD) (t : Fin cfg0.N) (p : Fin 256) : row (bC m c t) p = row (aC m c) (rowOf t p) :=
  funext fun k => blkC_apply m c t p k

/-! ## Row `p` of what point `t` computes is row `256 t + p` of the whole-array functions -/

/-- The attention. -/
theorem k_attn (c : Dev nD) (t : Fin cfg0.N) (p : Fin 256) :
    attnRow (tr (bAW0 m c t)) (bias2 (bAB0 m c t)) (tr (bAW1 m c t)) (bias2 (bAB1 m c t)) (row (bX m c t) p) (row (bH m c t) p)
      = attnOf (aX m c) (aH m c) (aAW0 m c) (aAB0 m c) (aAW1 m c) (aAB1 m c) (rowOf t p) := by
  rw [w_aw0, w_ab0, w_aw1, w_ab1, r_x, r_h]; rfl

/-- The attended input the body hands on, and the input weights after their shape cast. -/
abbrev xaBlk (c : Dev nD) (t : Fin cfg0.N) : FVec Ideal S256x256 .bf16 :=
  k0_pay3 (F := Ideal) (bX m c t) (bH m c t) (bAW0 m c t) (bAB0 m c t) (bAW1 m c t) (bAB1 m c t)
abbrev wihBlk (c : Dev nD) (t : Fin cfg0.N) : FVec Ideal S256x2048 .bf16 := k0_pay4 (F := Ideal) (bWIH m c t)

theorem r_xa (c : Dev nD) (t : Fin cfg0.N) (p : Fin 256) :
    row (xaBlk m c t) p
      = xAtt (attnOf (aX m c) (aH m c) (aAW0 m c) (aAB0 m c) (aAW1 m c) (aAB1 m c) (rowOf t p)) (row (aX m c) (rowOf t p)) := by
  funext k
  refine (Cert.KernelRows.pay3_apply (bX m c t) (bH m c t) (bAW0 m c t) (bAB0 m c t) (bAW1 m c t) (bAB1 m c t) p k).trans ?_
  rw [k_attn, r_x]

/-- The gate pre-activations. -/
theorem k_gates (c : Dev nD) (t : Fin cfg0.N) (p : Fin 256) :
    gates (tr (wihBlk m c t)) (bias2 (bBIH m c t)) (tr (bWHH m c t)) (bias2 (bBHH m c t)) (row (xaBlk m c t) p) (row (bH m c t) p)
      = gatesOf (aX m c) (aH m c) (aAW0 m c) (aAB0 m c) (aAW1 m c) (aAB1 m c) (aWIH m c) (aBIH m c) (aWHH m c) (aBHH m c) (rowOf t p) := by
  rw [r_xa, r_h, w_bih, w_whh, w_bhh]
  have e : tr (wihBlk m c t) = row (aWIH m c) := by
    show tr (k0_pay4 (F := Ideal) (bWIH m c t)) = _
    rw [Cert.KernelRows.pay4_eq]; exact w_wih m c t
  rw [e]; rfl

/-! ## What point `t` writes back is block `t` of the result arrays -/

theorem hz : (![0, 0] : Fin 2 → Nat) = fun _ => 0 := funext fun a => by fin_cases a <;> rfl

/-- Where block index `(p, q)` of a result window sits in its array. -/
theorem emb18 (t : Fin cfg0.N) (p : Fin 256) (q : Fin 256) :
    ((cfg0.win 18).blk t).view.emb (ix2 p q) = ix2 (rowOf t p) q := by
  funext a; apply Fin.ext
  obtain ⟨-, -, -, -, -, -, ⟨e0, e1⟩⟩ := idx_rows t
  match a with
  | ⟨0, _⟩ => show win0_18.index t (0 : Fin 2) * 256 + 1 * p.val = 256 * t.val + p.val; omega
  | ⟨1, _⟩ => show win0_18.index t (1 : Fin 2) * 256 + 1 * q.val = q.val; omega
theorem emb17 (t : Fin cfg0.N) (p : Fin 256) (q : Fin 512) :
    ((cfg0.win 17).blk t).view.emb (ix2 p q) = ix2 (rowOf t p) q := by
  funext a; apply Fin.ext
  obtain ⟨-, -, -, -, -, ⟨e0, e1⟩, -⟩ := idx_rows t
  match a with
  | ⟨0, _⟩ => show win0_17.index t (0 : Fin 2) * 256 + 1 * p.val = 256 * t.val + p.val; omega
  | ⟨1, _⟩ => show win0_17.index t (1 : Fin 2) * 512 + 1 * q.val = q.val; omega
theorem emb16 (t : Fin cfg0.N) (p : Fin 256) (q : Fin 512) :
    ((cfg0.win 16).blk t).view.emb (ix2 p q) = ix2 (rowOf t p) q := by
  funext a; apply Fin.ext
  obtain ⟨-, -, -, -, ⟨e0, e1⟩, -⟩ := idx_rows t
  match a with
  | ⟨0, _⟩ => show win0_16.index t (0 : Fin 2) * 256 + 1 * p.val = 256 * t.val + p.val; omega
  | ⟨1, _⟩ => show win0_16.index t (1 : Fin 2) * 512 + 1 * q.val = q.val; omega
theorem emb15 (t : Fin cfg0.N) (p : Fin 256) (q : Fin 1) :
    ((cfg0.win 15).blk t).view.emb (ix2 p q) = ix2 (rowOf t p) q := by
  funext a; apply Fin.ext
  obtain ⟨-, -, -, ⟨e0, e1⟩, -⟩ := idx_rows t
  match a with
  | ⟨0, _⟩ => show win0_15.index t (0 : Fin 2) * 256 + 1 * p.val = 256 * t.val + p.val; omega
  | ⟨1, _⟩ => show win0_15.index t (1 : Fin 2) * 1 + 1 * q.val = q.val; omega

/-- The attention window. -/
theorem flushed_attn (c : Dev nD) (t : Fin cfg0.N) :
    (dats m 0 c).flushed 18 t = ((cfg0.win 18).blk t).view.read (Elt Ideal) (attnArr m c) := by
  rw [Cert.KernelIdeal.Value.flushed18]
  unfold out0_18
  rw [View.canon_unit_zero hz]
  simp only [View.ld_unit_zero (S := S256x256) hz, View.ld_unit_zero (S := S256x512) hz, View.ld_unit_zero (S := S768x256) hz,
    View.ld_unit_zero (S := S1x256) hz]
  funext y
  obtain ⟨p, q, rfl⟩ : ∃ (p : Fin 256) (q : Fin 256), y = ix2 p q := ⟨y 0, y 1, eq_ix2 y⟩
  show k0_pay2 (F := Ideal) (bX m c t) (bH m c t) (bAW0 m c t) (bAB0 m c t) (bAW1 m c t) (bAB1 m c t) (ix2 p q)
    = attnArr m c (((cfg0.win 18).blk t).view.emb (ix2 p q))
  rw [emb18]
  refine (Cert.KernelRows.pay2_apply (bX m c t) (bH m c t) (bAW0 m c t) (bAB0 m c t) (bAW1 m c t) (bAB1 m c t) p q).trans ?_
  rw [k_attn]; rfl

/-- The new cell state's window. -/
theorem flushed_c (c : Dev nD) (t : Fin cfg0.N) :
    (dats m 0 c).flushed 17 t = ((cfg0.win 17).blk t).view.read (Elt Ideal) (cArr m c) := by
  rw [Cert.KernelIdeal.Value.flushed17]
  unfold out0_17
  rw [View.canon_unit_zero hz]
  simp only [View.ld_unit_zero (S := S256x256) hz, View.ld_unit_zero (S := S256x512) hz, View.ld_unit_zero (S := S768x256) hz,
    View.ld_unit_zero (S := S1x256) hz, View.ld_unit_zero (S := S256x2048) hz, View.ld_unit_zero (S := S512x2048) hz,
    View.ld_unit_zero (S := S1x2048) hz]
  funext y
  obtain ⟨p, j, rfl⟩ : ∃ (p : Fin 256) (j : Fin 512), y = ix2 p j := ⟨y 0, y 1, eq_ix2 y⟩
  show k0_pay6 (F := Ideal) (bH m c t) (bC m c t) (xaBlk m c t) (wihBlk m c t) (bWHH m c t) (bBIH m c t) (bBHH m c t) (ix2 p j)
    = cArr m c (((cfg0.win 17).blk t).view.emb (ix2 p j))
  rw [emb17]
  refine (Cert.KernelRows.pay6_apply (bH m c t) (bC m c t) (xaBlk m c t) (wihBlk m c t) (bWHH m c t) (bBIH m c t) (bBHH m c t) p j).trans ?_
  rw [k_gates, r_c]; rfl

/-- The new hidden state's window. -/
theorem flushed_h (c : Dev nD) (t : Fin cfg0.N) :
    (dats m 0 c).flushed 16 t = ((cfg0.win 16).blk t).view.read (Elt Ideal) (hArr m c) := by
  rw [Cert.KernelIdeal.Value.flushed16]
  unfold out0_16
  rw [View.canon_unit_zero hz]
  simp only [View.ld_unit_zero (S := S256x256) hz, View.ld_unit_zero (S := S256x512) hz, View.ld_unit_zero (S := S768x256) hz,
    View.ld_unit_zero (S := S1x256) hz, View.ld_unit_zero (S := S256x2048) hz, View.ld_unit_zero (S := S512x2048) hz,
    View.ld_unit_zero (S := S1x2048) hz]
  funext y
  obtain ⟨p, j, rfl⟩ : ∃ (p : Fin 256) (j : Fin 512), y = ix2 p j := ⟨y 0, y 1, eq_ix2 y⟩
  show k0_pay7 (F := Ideal) (bH m c t) (bC m c t) (xaBlk m c t) (wihBlk m c t) (bWHH m c t) (bBIH m c t) (bBHH m c t) (ix2 p j)
    = hArr m c (((cfg0.win 16).blk t).view.emb (ix2 p j))
  rw [emb16]
  refine (Cert.KernelRows.pay7_apply (bH m c t) (bC m c t) (xaBlk m c t) (wihBlk m c t) (bWHH m c t) (bBIH m c t) (bBHH m c t) p j).trans ?_
  rw [k_gates, r_c]; rfl

/-- The output's window. -/
theorem flushed_out (c : Dev nD) (t : Fin cfg0.N) :
    (dats m 0 c).flushed 15 t = ((cfg0.win 15).blk t).view.read (Elt Ideal) (outArr m c) := by
  rw [Cert.KernelIdeal.Value.flushed15]
  unfold out0_15
  rw [View.canon_unit_zero hz]
  simp only [View.ld_unit_zero (S := S256x256) hz, View.ld_unit_zero (S := S256x512) hz, View.ld_unit_zero (S := S768x256) hz,
    View.ld_unit_zero (S := S1x256) hz, View.ld_unit_zero (S := S256x2048) hz, View.ld_unit_zero (S := S512x2048) hz,
    View.ld_unit_zero (S := S1x2048) hz, View.ld_unit_zero (S := S512x512) hz, View.ld_unit_zero (S := S1x512) hz,
    View.ld_unit_zero (S := S512x1) hz, View.ld_unit_zero (S := S1x1) hz]
  funext y
  obtain ⟨p, z, rfl⟩ : ∃ (p : Fin 256) (z : Fin 1), y = ix2 p z := ⟨y 0, y 1, eq_ix2 y⟩
  show k0_pay1 (F := Ideal) (k0_pay8 (F := Ideal) (bH m c t) (bC m c t) (xaBlk m c t) (wihBlk m c t) (bWHH m c t) (bBIH m c t) (bBHH m c t)
      (bOW0 m c t) (bOB0 m c t) (bOW1 m c t)) (bOB1 m c t) (ix2 p z)
    = outArr m c (((cfg0.win 15).blk t).view.emb (ix2 p z))
  rw [emb15]
  refine (Cert.KernelRows.pay1_pay8_apply (bH m c t) (bC m c t) (xaBlk m c t) (wihBlk m c t) (bWHH m c t) (bBIH m c t) (bBHH m c t)
    (bOW0 m c t) (bOB0 m c t) (bOW1 m c t) (bOB1 m c t) p z).trans ?_
  rw [k_gates, r_c, w_ow0, w_ob0, w_ow1, w_ob1]; rfl

/-! ## The 32 blocks tile each result array -/

theorem mem_blk_attn (t : Fin cfg0.N) (i : S8192x256.Idx) :
    i ∈ ((cfg0.win 18).blk t).view.set ↔ ∀ a : Fin 2, win0_18.index t a * S256x256.size a ≤ (i a).val
      ∧ (i a).val < win0_18.index t a * S256x256.size a + S256x256.size a := by
  show i ∈ ((View.whole main_v18_3).slice (win0_18.rect t)).set ↔ _
  rw [View.set_slice_whole, Rect.mem_set_unit]
  exact Iff.rfl
theorem mem_blk_c (t : Fin cfg0.N) (i : S8192x512.Idx) :
    i ∈ ((cfg0.win 17).blk t).view.set ↔ ∀ a : Fin 2, win0_17.index t a * S256x512.size a ≤ (i a).val
      ∧ (i a).val < win0_17.index t a * S256x512.size a + S256x512.size a := by
  show i ∈ ((View.whole main_v18_2).slice (win0_17.rect t)).set ↔ _
  rw [View.set_slice_whole, Rect.mem_set_unit]
  exact Iff.rfl
theorem mem_blk_h (t : Fin cfg0.N) (i : S8192x512.Idx) :
    i ∈ ((cfg0.win 16).blk t).view.set ↔ ∀ a : Fin 2, win0_16.index t a * S256x512.size a ≤ (i a).val
      ∧ (i a).val < win0_16.index t a * S256x512.size a + S256x512.size a := by
  show i ∈ ((View.whole main_v18_1).slice (win0_16.rect t)).set ↔ _
  rw [View.set_slice_whole, Rect.mem_set_unit]
  exact Iff.rfl
theorem mem_blk_out (t : Fin cfg0.N) (i : S8192x1.Idx) :
    i ∈ ((cfg0.win 15).blk t).view.set ↔ ∀ a : Fin 2, win0_15.index t a * S256x1.size a ≤ (i a).val
      ∧ (i a).val < win0_15.index t a * S256x1.size a + S256x1.size a := by
  show i ∈ ((View.whole main_v18_0).slice (win0_15.rect t)).set ↔ _
  rw [View.set_slice_whole, Rect.mem_set_unit]
  exact Iff.rfl

/-- Row `r` lies in the block of point `r / 256`. -/
theorem cover_attn (i : S8192x256.Idx) :
    ∃ t : Fin cfg0.N, (cfg0.win 18).flush t = true ∧ i ∈ ((cfg0.win 18).blk t).view.set := by
  have hi0 : (i 0).val < 8192 := (i 0).isLt
  have hi1 : (i 1).val < 256 := (i 1).isLt
  have hN : cfg0.N = 32 := N_0
  refine ⟨⟨(i 0).val / 256, by omega⟩, flush0_18 _, ?_⟩
  obtain ⟨-, -, -, -, -, -, ⟨e0, e1⟩⟩ := idx_rows ⟨(i 0).val / 256, by omega⟩
  rw [mem_blk_attn]
  intro a
  match a with
  | ⟨0, _⟩ =>
    show win0_18.index ⟨(i 0).val / 256, _⟩ (0 : Fin 2) * 256 ≤ (i 0).val
      ∧ (i 0).val < win0_18.index ⟨(i 0).val / 256, _⟩ (0 : Fin 2) * 256 + 256
    rw [e0]; show (i 0).val / 256 * 256 ≤ (i 0).val ∧ (i 0).val < (i 0).val / 256 * 256 + 256; omega
  | ⟨1, _⟩ =>
    show win0_18.index ⟨(i 0).val / 256, _⟩ (1 : Fin 2) * 256 ≤ (i 1).val
      ∧ (i 1).val < win0_18.index ⟨(i 0).val / 256, _⟩ (1 : Fin 2) * 256 + 256
    rw [e1]; omega
theorem cover_c (i : S8192x512.Idx) :
    ∃ t : Fin cfg0.N, (cfg0.win 17).flush t = true ∧ i ∈ ((cfg0.win 17).blk t).view.set := by
  have hi0 : (i 0).val < 8192 := (i 0).isLt
  have hi1 : (i 1).val < 512 := (i 1).isLt
  have hN : cfg0.N = 32 := N_0
  refine ⟨⟨(i 0).val / 256, by omega⟩, flush0_17 _, ?_⟩
  obtain ⟨-, -, -, -, -, ⟨e0, e1⟩, -⟩ := idx_rows ⟨(i 0).val / 256, by omega⟩
  rw [mem_blk_c]
  intro a
  match a with
  | ⟨0, _⟩ =>
    show win0_17.index ⟨(i 0).val / 256, _⟩ (0 : Fin 2) * 256 ≤ (i 0).val
      ∧ (i 0).val < win0_17.index ⟨(i 0).val / 256, _⟩ (0 : Fin 2) * 256 + 256
    rw [e0]; show (i 0).val / 256 * 256 ≤ (i 0).val ∧ (i 0).val < (i 0).val / 256 * 256 + 256; omega
  | ⟨1, _⟩ =>
    show win0_17.index ⟨(i 0).val / 256, _⟩ (1 : Fin 2) * 512 ≤ (i 1).val
      ∧ (i 1).val < win0_17.index ⟨(i 0).val / 256, _⟩ (1 : Fin 2) * 512 + 512
    rw [e1]; omega
theorem cover_h (i : S8192x512.Idx) :
    ∃ t : Fin cfg0.N, (cfg0.win 16).flush t = true ∧ i ∈ ((cfg0.win 16).blk t).view.set := by
  have hi0 : (i 0).val < 8192 := (i 0).isLt
  have hi1 : (i 1).val < 512 := (i 1).isLt
  have hN : cfg0.N = 32 := N_0
  refine ⟨⟨(i 0).val / 256, by omega⟩, flush0_16 _, ?_⟩
  obtain ⟨-, -, -, -, ⟨e0, e1⟩, -⟩ := idx_rows ⟨(i 0).val / 256, by omega⟩
  rw [mem_blk_h]
  intro a
  match a with
  | ⟨0, _⟩ =>
    show win0_16.index ⟨(i 0).val / 256, _⟩ (0 : Fin 2) * 256 ≤ (i 0).val
      ∧ (i 0).val < win0_16.index ⟨(i 0).val / 256, _⟩ (0 : Fin 2) * 256 + 256
    rw [e0]; show (i 0).val / 256 * 256 ≤ (i 0).val ∧ (i 0).val < (i 0).val / 256 * 256 + 256; omega
  | ⟨1, _⟩ =>
    show win0_16.index ⟨(i 0).val / 256, _⟩ (1 : Fin 2) * 512 ≤ (i 1).val
      ∧ (i 1).val < win0_16.index ⟨(i 0).val / 256, _⟩ (1 : Fin 2) * 512 + 512
    rw [e1]; omega
theorem cover_out (i : S8192x1.Idx) :
    ∃ t : Fin cfg0.N, (cfg0.win 15).flush t = true ∧ i ∈ ((cfg0.win 15).blk t).view.set := by
  have hi0 : (i 0).val < 8192 := (i 0).isLt
  have hi1 : (i 1).val < 1 := (i 1).isLt
  have hN : cfg0.N = 32 := N_0
  refine ⟨⟨(i 0).val / 256, by omega⟩, flush0_15 _, ?_⟩
  obtain ⟨-, -, -, ⟨e0, e1⟩, -⟩ := idx_rows ⟨(i 0).val / 256, by omega⟩
  rw [mem_blk_out]
  intro a
  match a with
  | ⟨0, _⟩ =>
    show win0_15.index ⟨(i 0).val / 256, _⟩ (0 : Fin 2) * 256 ≤ (i 0).val
      ∧ (i 0).val < win0_15.index ⟨(i 0).val / 256, _⟩ (0 : Fin 2) * 256 + 256
    rw [e0]; show (i 0).val / 256 * 256 ≤ (i 0).val ∧ (i 0).val < (i 0).val / 256 * 256 + 256; omega
  | ⟨1, _⟩ =>
    show win0_15.index ⟨(i 0).val / 256, _⟩ (1 : Fin 2) * 1 ≤ (i 1).val
      ∧ (i 1).val < win0_15.index ⟨(i 0).val / 256, _⟩ (1 : Fin 2) * 1 + 1
    rw [e1]; omega

/-! ## The result arrays after the run -/

theorem final_attn (c : Dev nD) : (dats m 0 c).arrAt 18 cfg0.N = attnArr m c :=
  (dats m 0 c).arrAt_eq_of_cover 18 (attnArr m c) (fun t _ => flushed_attn m c t) cover_attn
theorem final_c (c : Dev nD) : (dats m 0 c).arrAt 17 cfg0.N = cArr m c :=
  (dats m 0 c).arrAt_eq_of_cover 17 (cArr m c) (fun t _ => flushed_c m c t) cover_c
theorem final_h (c : Dev nD) : (dats m 0 c).arrAt 16 cfg0.N = hArr m c :=
  (dats m 0 c).arrAt_eq_of_cover 16 (hArr m c) (fun t _ => flushed_h m c t) cover_h
theorem final_out (c : Dev nD) : (dats m 0 c).arrAt 15 cfg0.N = outArr m c :=
  (dats m 0 c).arrAt_eq_of_cover 15 (outArr m c) (fun t _ => flushed_out m c t) cover_out

/-- The kernel's run: every execution ends with the four results at their functions of the arguments, the arguments
    unchanged. -/
theorem run : θ_run defs (onTc (τ := τ) (main (F := Ideal))) ⟨m, fun _ => 0, ρ⟩ fun r => ∀ c : Dev nD,
      r.2.mem ((c : Thread nD τ).loc main_v18_0) = outArr m c
      ∧ r.2.mem ((c : Thread nD τ).loc main_v18_1) = hArr m c
      ∧ r.2.mem ((c : Thread nD τ).loc main_v18_2) = cArr m c
      ∧ r.2.mem ((c : Thread nD τ).loc main_v18_3) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_out m c), (h c).2.1.trans (final_h m c),
      (h c).2.2.1.trans (final_c m c), (h c).2.2.2.1.trans (final_attn m c), (h c).2.2.2.2⟩)
    (Cert.KernelIdeal.Value.run_blocks m ρ)

end Cert.KernelBlocks

end
-- ==== Proof.RefAttn.lean ====
/-
  The reference's attention, read at an index at the ideal values.

  Stage by stage the host program joins `x` and `h` along the columns, contracts with the transposed first matrix, adds
  the bias (broadcast along the rows), rectifies, contracts with the transposed second matrix, adds its bias, subtracts
  each row's maximum, exponentiates, and divides by the row's sum: row `r` of the result is `Cell.attnOf … r`, the
  softmax of the two-layer map of row `r` of `[x | h]`. The attended input is `x` times that.
-/
import proofs.«125494_j63556926046386_1_alg».proof.Proof.Gen.ReferenceIdeal.Read
import proofs.«125494_j63556926046386_1_alg».proof.Proof.CellSpec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx
open Cert.ReferenceIdeal Cert.ReferenceIdeal.Read Cert.Cell

namespace Cert.RefRows

/-- The joined array at `(r, k)` is the joined row. -/
private theorem ref_cat (x0 : (⟨S8192x256, .f32⟩ : BufTy).Contents (Elt Ideal)) (x1 : (⟨S8192x512, .f32⟩ : BufTy).Contents (Elt Ideal))
    (r : Fin 8192) (k : Fin 768) :
    val_main_v0 (F := Ideal) x0 x1 (ix2 r k) = cat (row x0 r) (row x1 r) k := by
  unfold val_main_v0 cat
  by_cases hk : k.val < 256
  · rw [dif_pos hk]
    exact concatenate_pair_apply_left (1 : Fin S8192x768.rank) x0 x1 Gen.concatenates_S8192x256_S8192x512_S8192x768_d1 (ix2 r k) rfl
      (ix2 r ⟨k.val, hk⟩) (fun b => match b with | ⟨0, _⟩ => rfl | ⟨1, _⟩ => rfl)
  · rw [dif_neg hk]
    exact concatenate_pair_apply_right (1 : Fin S8192x768.rank) x0 x1 Gen.concatenates_S8192x256_S8192x512_S8192x768_d1 (ix2 r k) rfl rfl
      (ix2 r ⟨k.val - 256, by have := k.isLt; omega⟩)
      (fun b hb => match b, hb with | ⟨0, _⟩, _ => rfl | ⟨1, _⟩, hb => absurd rfl hb)
      (by show (k.val - 256) + 256 = k.val; omega)

/-- The first layer at `(r, j)`. -/
private theorem ref_lin0 (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal)) (r : Fin 8192) (j : Fin 256) :
    val_main_v5 (F := Ideal) x0 x1 x3 x4 (ix2 r j) = lin (row x3) (bias1 x4) (cat (row x0 r) (row x1 r)) j := by
  have e3 : idx_main_v3 (idx_main_v4 (ix2 r j)) = ix1 j := funext fun a => Fin.ext (by match a with | ⟨0, _⟩ => rfl)
  rw [val_main_v5_apply, val_main_v2_apply, val_main_v4_apply, val_main_v3_apply, Ideal.addf_def, e3]
  unfold lin
  refine congrArg (· + bias1 x4 j) (Finset.sum_congr rfl fun k _ => ?_)
  have e1 : lidx_main_v2 (ix2 r j) k = ix2 r k := funext fun a => Fin.ext (by match a with | ⟨0, _⟩ => rfl | ⟨1, _⟩ => rfl)
  have e2 : idx_main_v1 (ridx_main_v2 (ix2 r j) k) = ix2 j k := funext fun a => Fin.ext (by match a with | ⟨0, _⟩ => rfl | ⟨1, _⟩ => rfl)
  rw [val_main_v1_apply, e1, e2, ref_cat]
  rfl

/-- The rectified first layer at `(r, j)`. -/
private theorem ref_relu0 (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal)) (r : Fin 8192) (j : Fin 256) :
    val_main_v6 (F := Ideal) x0 x1 x3 x4 (ix2 r j) = relu (lin (row x3) (bias1 x4) (cat (row x0 r) (row x1 r))) j := by
  rw [val_main_v6_apply, val_main_call0_v0_apply, val_main_call0_cst_apply, ref_lin0, Ideal.maximumf_def]
  rfl

/-- The logits of batch row `r`. -/
private def logits (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) : Fin 256 → EReal :=
  lin (row x5) (bias1 x6) (relu (lin (row x3) (bias1 x4) (cat (row x0 r) (row x1 r))))

/-- The second layer at `(r, j)`. -/
private theorem ref_logits (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) (j : Fin 256) :
    val_main_v11 (F := Ideal) x0 x1 x3 x4 x5 x6 (ix2 r j) = logits x0 x1 x3 x4 x5 x6 r j := by
  have e3 : idx_main_v9 (idx_main_v10 (ix2 r j)) = ix1 j := funext fun a => Fin.ext (by match a with | ⟨0, _⟩ => rfl)
  rw [val_main_v11_apply, val_main_v8_apply, val_main_v10_apply, val_main_v9_apply, Ideal.addf_def, e3]
  unfold logits lin
  refine congrArg (· + bias1 x6 j) (Finset.sum_congr rfl fun k _ => ?_)
  have e1 : lidx_main_v8 (ix2 r j) k = ix2 r k := funext fun a => Fin.ext (by match a with | ⟨0, _⟩ => rfl | ⟨1, _⟩ => rfl)
  have e2 : idx_main_v7 (ridx_main_v8 (ix2 r j) k) = ix2 j k := funext fun a => Fin.ext (by match a with | ⟨0, _⟩ => rfl | ⟨1, _⟩ => rfl)
  rw [val_main_v7_apply, e1, e2, ref_relu0]
  rfl

/-- The row maximum at `r`: the fold of `max` over the row's logits from the pattern of `-∞`, then `max` with that pattern. -/
private theorem ref_rowMax (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) :
    val_main_v14 (F := Ideal) x0 x1 x3 x4 x5 x6 (ix1 r) = rowMax (logits x0 x1 x3 x4 x5 x6 r) := by
  have hred : S8192x256.Reduces [1] S8192 := by decide
  have hrow : (val_main_v11 (F := Ideal) x0 x1 x3 x4 x5 x6) ∘ hred.lift (ix1 r) = logits x0 x1 x3 x4 x5 x6 r := by
    funext k
    have ek : hred.lift (ix1 r) k = ix2 r k := funext fun a => Fin.ext (by match a with | ⟨0, _⟩ => rfl | ⟨1, _⟩ => rfl)
    show val_main_v11 (F := Ideal) x0 x1 x3 x4 x5 x6 (hred.lift (ix1 r) k) = _
    rw [ek]
    exact ref_logits x0 x1 x3 x4 x5 x6 r k
  rw [val_main_v14_apply, val_main_v13_apply, val_main_cst_0_apply, Ideal.maximumf_def]
  unfold val_main_v12 rowMax
  rw [Host.reduce_eq_fold_single (FloatOps.maximumf (F := Ideal) (φ := .f32)) _ _ Gen.reducesTo_S8192x256_S8192_d1 hred Gen.h_S_ (ix1 r), hrow,
    val_main_cst_apply]
  rfl

/-- The exponential of the shifted logits at `(r, j)`. -/
private theorem ref_exp (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) (j : Fin 256) :
    val_main_v18 (F := Ideal) x0 x1 x3 x4 x5 x6 (ix2 r j)
      = Ideal.exp (logits x0 x1 x3 x4 x5 x6 r j - rowMax (logits x0 x1 x3 x4 x5 x6 r)) := by
  have e1 : idx_main_v15 (idx_main_v16 (ix2 r j)) = ix1 r := funext fun a => Fin.ext (by match a with | ⟨0, _⟩ => rfl)
  rw [val_main_v18_apply, val_main_v17_apply, val_main_v16_apply, val_main_v15_apply, e1, ref_rowMax, ref_logits,
    Ideal.hostUnary_exp_def, Ideal.subf_def]

/-- The row's sum of exponentials at `(r, j)`. -/
private theorem ref_sum (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) (j : Fin 256) :
    val_main_v21 (F := Ideal) x0 x1 x3 x4 x5 x6 (ix2 r j)
      = ∑ k : Fin 256, Ideal.exp (logits x0 x1 x3 x4 x5 x6 r k - rowMax (logits x0 x1 x3 x4 x5 x6 r)) := by
  have e1 : idx_main_v20 (idx_main_v21 (ix2 r j)) = ix1 r := funext fun a => Fin.ext (by match a with | ⟨0, _⟩ => rfl)
  rw [val_main_v21_apply, val_main_v20_apply, e1, val_main_v19_apply, val_main_cst_1_apply, Ideal.ofBits_def, Ideal.ofBits_zero_f32, zero_add]
  refine Finset.sum_congr rfl fun k _ => ?_
  have e2 : idx_main_v19 (ix1 r) k = ix2 r k := funext fun a => Fin.ext (by match a with | ⟨0, _⟩ => rfl | ⟨1, _⟩ => rfl)
  rw [e2, ref_exp]

/-- The reference's attention at `(r, q)`. -/
theorem ref_attn (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) (q : Fin 256) :
    val_main_v22 (F := Ideal) x0 x1 x3 x4 x5 x6 (ix2 r q) = attnOf x0 x1 x3 x4 x5 x6 r q := by
  rw [val_main_v22_apply, ref_exp, ref_sum, Ideal.hostDivf_def]
  rfl

/-- The reference's attended input at `(r, k)`. -/
theorem ref_xatt (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) (r : Fin 8192) (k : Fin 256) :
    val_main_v23 (F := Ideal) x0 x1 x3 x4 x5 x6 (ix2 r k) = xAtt (attnOf x0 x1 x3 x4 x5 x6 r) (row x0 r) k := by
  rw [val_main_v23_apply, ref_attn, Ideal.mulf_def]
  rfl

end Cert.RefRows

end
-- ==== Proof.RefCell.lean ====
/-
  The reference's LSTM cell and output head, read at an index at the ideal values.

  The gate pre-activations are the attended input contracted with the transposed input weights, plus the input bias, plus
  the hidden state contracted with the transposed hidden weights, plus the hidden bias: the same four terms the kernel
  adds in another order. The gates are the four column slices; jax expands each logistic function into
  `1 / (1 + exp (-x))`, which at the ideal values IS the logistic function; the new states and the head follow.
-/
import proofs.«125494_j63556926046386_1_alg».proof.Proof.Gen.ReferenceIdeal.Read
import proofs.«125494_j63556926046386_1_alg».proof.Proof.CellSpec
import proofs.«125494_j63556926046386_1_alg».proof.Proof.RefAttn
import Idealize.ShloMosaic.Lib.Pipeline.Value
import Idealize.ShloMosaic.Lib.ValueLayout
import Idealize.ShloMosaic.Lib.IdealHost
import Idealize.ShloMosaic.PureOps.Ideal.Laws

noncomputable section

open scoped BigOperators
open Idealize.ShloMosaic Idealize.ShloMosaic.TcCoe Idealize.ShloMosaic.ValueIdx
open Cert.ReferenceIdeal Cert.ReferenceIdeal.Read Cert.Cell

namespace Cert.RefRows

/-- The reference's gate pre-activations at `(r, n)`. -/
theorem ref_gates (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (n : Fin 2048) :
    val_main_v34 (F := Ideal) x0 x1 x3 x4 x5 x6 x7 x8 x9 x10 (ix2 r n) = gatesOf x0 x1 x3 x4 x5 x6 x7 x8 x9 x10 r n := by
  rw [val_main_v34_apply, val_main_v31_apply, val_main_v28_apply, val_main_v25_apply, val_main_v27_apply, val_main_v26_apply,
    val_main_v30_apply, val_main_v33_apply, val_main_v32_apply]
  simp only [val_main_v24_apply, val_main_v29_apply]
  have e1 : ∀ k : Fin 256, lidx_main_v25 (ix2 r n) k = ix2 r k := fun k =>
    funext fun a => Fin.ext (by match a with | ⟨0, _⟩ => rfl | ⟨1, _⟩ => rfl)
  have e2 : ∀ k : Fin 256, idx_main_v24 (ridx_main_v25 (ix2 r n) k) = ix2 n k := fun k =>
    funext fun a => Fin.ext (by match a with | ⟨0, _⟩ => rfl | ⟨1, _⟩ => rfl)
  have e3 : idx_main_v26 (idx_main_v27 (ix2 r n)) = ix1 n :=
    funext fun a => Fin.ext (by match a with | ⟨0, _⟩ => rfl)
  have e4 : ∀ k : Fin 512, lidx_main_v30 (ix2 r n) k = ix2 r k := fun k =>
    funext fun a => Fin.ext (by match a with | ⟨0, _⟩ => rfl | ⟨1, _⟩ => rfl)
  have e5 : ∀ k : Fin 512, idx_main_v29 (ridx_main_v30 (ix2 r n) k) = ix2 n k := fun k =>
    funext fun a => Fin.ext (by match a with | ⟨0, _⟩ => rfl | ⟨1, _⟩ => rfl)
  have e6 : idx_main_v32 (idx_main_v33 (ix2 r n)) = ix1 n :=
    funext fun a => Fin.ext (by match a with | ⟨0, _⟩ => rfl)
  simp only [e1, e2, e3, e4, e5, e6, ref_xatt, Ideal.addf_def]
  exact gates_ref (row x7) (bias1 x8) (row x9) (bias1 x10) (xAtt (attnOf x0 x1 x3 x4 x5 x6 r) (row x0 r)) (row x1 r) n

/-- The host spells a logistic function `1 / (1 + exp (-g))` with the word of `1.0` twice; at the ideal values that IS
    the logistic function. -/
theorem host_logistic (g : EReal) :
    FloatOps.hostDivf (F := Ideal) (φ := .f32) (FloatOps.ofBits .f32 0x3F800000#32)
        (FloatOps.addf (FloatOps.ofBits .f32 0x3F800000#32) (FloatOps.hostUnary .exp (FloatOps.hostNegf g)))
      = Ideal.logistic g := by
  simp only [Ideal.hostDivf_def, Ideal.addf_def, Ideal.hostUnary_exp_def, Ideal.hostNegf_def, Ideal.negf_def, Ideal.ofBits_def,
    Ideal.ofBits_one_f32]
  rfl

/-- The input gate: the logistic function of the first 512 columns of the pre-activations. -/
theorem ref_gate_i (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (j : Fin 512) :
    val_main_v44 (F := Ideal) x0 x1 x3 x4 x5 x6 x7 x8 x9 x10 (ix2 r j)
      = Ideal.logistic (gatesOf x0 x1 x3 x4 x5 x6 x7 x8 x9 x10 r (gateAt 0 (by decide) j)) := by
  rw [val_main_v44_apply, val_main_v43_apply, val_main_cst_3_apply, val_main_v42_apply, val_main_v41_apply, val_main_cst_2_apply,
    val_main_v40_apply, val_main_v39_apply, val_main_v35_apply]
  have e : idx_main_v35 (ix2 r j) = ix2 r (gateAt 0 (by decide) j) :=
    funext fun a => Fin.ext (by match a with | ⟨0, _⟩ => rfl | ⟨1, _⟩ => exact (Nat.zero_add _).symm)
  rw [e, ref_gates]
  exact host_logistic _

/-- The forget gate: columns 512 to 1023. -/
theorem ref_gate_f (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (j : Fin 512) :
    val_main_v50 (F := Ideal) x0 x1 x3 x4 x5 x6 x7 x8 x9 x10 (ix2 r j)
      = Ideal.logistic (gatesOf x0 x1 x3 x4 x5 x6 x7 x8 x9 x10 r (gateAt 512 (by decide) j)) := by
  rw [val_main_v50_apply, val_main_v49_apply, val_main_cst_5_apply, val_main_v48_apply, val_main_v47_apply, val_main_cst_4_apply,
    val_main_v46_apply, val_main_v45_apply, val_main_v36_apply]
  have e : idx_main_v36 (ix2 r j) = ix2 r (gateAt 512 (by decide) j) :=
    funext fun a => Fin.ext (by match a with | ⟨0, _⟩ => rfl | ⟨1, _⟩ => rfl)
  rw [e, ref_gates]
  exact host_logistic _

/-- The candidate: the hyperbolic tangent of columns 1024 to 1535. -/
theorem ref_gate_g (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (j : Fin 512) :
    val_main_v51 (F := Ideal) x0 x1 x3 x4 x5 x6 x7 x8 x9 x10 (ix2 r j)
      = Ideal.tanh (gatesOf x0 x1 x3 x4 x5 x6 x7 x8 x9 x10 r (gateAt 1024 (by decide) j)) := by
  rw [val_main_v51_apply, val_main_v37_apply]
  have e : idx_main_v37 (ix2 r j) = ix2 r (gateAt 1024 (by decide) j) :=
    funext fun a => Fin.ext (by match a with | ⟨0, _⟩ => rfl | ⟨1, _⟩ => rfl)
  rw [e, ref_gates]
  rfl

/-- The output gate: columns 1536 to 2047. -/
theorem ref_gate_o (x0 : (⟨S8192x256, .f32⟩ : BufTy).Contents (Elt Ideal)) (x1 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (j : Fin 512) :
    val_main_v57 (F := Ideal) x0 x1 x3 x4 x5 x6 x7 x8 x9 x10 (ix2 r j)
      = Ideal.logistic (gatesOf x0 x1 x3 x4 x5 x6 x7 x8 x9 x10 r (gateAt 1536 (by decide) j)) := by
  rw [val_main_v57_apply, val_main_v56_apply, val_main_cst_7_apply, val_main_v55_apply, val_main_v54_apply, val_main_cst_6_apply,
    val_main_v53_apply, val_main_v52_apply, val_main_v38_apply]
  have e : idx_main_v38 (ix2 r j) = ix2 r (gateAt 1536 (by decide) j) :=
    funext fun a => Fin.ext (by match a with | ⟨0, _⟩ => rfl | ⟨1, _⟩ => rfl)
  rw [e, ref_gates]
  exact host_logistic _

/-- The reference's new cell state at `(r, j)`. -/
theorem ref_c (x0 : (⟨S8192x256, .f32⟩ : BufTy).Contents (Elt Ideal)) (x1 x2 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (j : Fin 512) :
    val_main_v60 (F := Ideal) x0 x1 x2 x3 x4 x5 x6 x7 x8 x9 x10 (ix2 r j) = cOf x0 x1 x2 x3 x4 x5 x6 x7 x8 x9 x10 r j := by
  rw [val_main_v60_apply, val_main_v58_apply, val_main_v59_apply, ref_gate_f, ref_gate_i, ref_gate_g]
  rfl

/-- The reference's new hidden state at `(r, j)`. -/
theorem ref_h (x0 : (⟨S8192x256, .f32⟩ : BufTy).Contents (Elt Ideal)) (x1 x2 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal)) (r : Fin 8192) (j : Fin 512) :
    val_main_v62 (F := Ideal) x0 x1 x2 x3 x4 x5 x6 x7 x8 x9 x10 (ix2 r j) = hOf x0 x1 x2 x3 x4 x5 x6 x7 x8 x9 x10 r j := by
  rw [val_main_v62_apply, val_main_v61_apply, ref_gate_o, ref_c]
  rfl

/-- The head's first layer at `(r, q)`: the new hidden row through the first affine map, rectified. -/
theorem ref_head0 (x0 : (⟨S8192x256, .f32⟩ : BufTy).Contents (Elt Ideal)) (x1 x2 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal))
    (x11 : (⟨S512x512, .f32⟩ : BufTy).Contents (Elt Ideal)) (x12 : (⟨S512, .f32⟩ : BufTy).Contents (Elt Ideal)) (r : Fin 8192) (q : Fin 512) :
    val_main_v68 (F := Ideal) x0 x1 x2 x3 x4 x5 x6 x7 x8 x9 x10 x11 x12 (ix2 r q)
      = relu (lin (row x11) (bias1 x12) (hOf x0 x1 x2 x3 x4 x5 x6 x7 x8 x9 x10 r)) q := by
  rw [val_main_v68_apply, val_main_v67_apply, val_main_v64_apply, val_main_v66_apply, val_main_v65_apply, val_main_call1_v0_apply,
    val_main_call1_cst_apply]
  simp only [val_main_v63_apply]
  have e1 : ∀ k : Fin 512, lidx_main_v64 (ix2 r q) k = ix2 r k := fun k =>
    funext fun a => Fin.ext (by match a with | ⟨0, _⟩ => rfl | ⟨1, _⟩ => rfl)
  have e2 : ∀ k : Fin 512, idx_main_v63 (ridx_main_v64 (ix2 r q) k) = ix2 q k := fun k =>
    funext fun a => Fin.ext (by match a with | ⟨0, _⟩ => rfl | ⟨1, _⟩ => rfl)
  have e3 : idx_main_v65 (idx_main_v66 (ix2 r q)) = ix1 q :=
    funext fun a => Fin.ext (by match a with | ⟨0, _⟩ => rfl)
  simp only [e1, e2, e3, ref_h]
  rfl

/-- The reference's output at `(r, 0)`. -/
theorem ref_out (x0 : (⟨S8192x256, .f32⟩ : BufTy).Contents (Elt Ideal)) (x1 x2 : (⟨S8192x512, .f32⟩ : BufTy).Contents (Elt Ideal))
    (x3 : (⟨S256x768, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S2048x256, .f32⟩ : BufTy).Contents (Elt Ideal)) (x8 : (⟨S2048, .f32⟩ : BufTy).Contents (Elt Ideal))
    (x9 : (⟨S2048x512, .f32⟩ : BufTy).Contents (Elt Ideal)) (x10 : (⟨S2048, .f32⟩ : BufTy).Contents (Elt Ideal))
    (x11 : (⟨S512x512, .f32⟩ : BufTy).Contents (Elt Ideal)) (x12 : (⟨S512, .f32⟩ : BufTy).Contents (Elt Ideal))
    (x13 : (⟨S1x512, .f32⟩ : BufTy).Contents (Elt Ideal)) (x14 : (⟨S1, .f32⟩ : BufTy).Contents (Elt Ideal)) (r : Fin 8192) (z : Fin 1) :
    val_main_v79 (F := Ideal) x0 x1 x2 x3 x4 x5 x6 x7 x8 x9 x10 x11 x12 x13 x14 (ix2 r z)
      = outOf x0 x1 x2 x3 x4 x5 x6 x7 x8 x9 x10 x11 x12 x13 x14 r := by
  obtain rfl : z = 0 := Subsingleton.elim _ _
  rw [val_main_v79_apply, val_main_v78_apply, val_main_cst_9_apply, val_main_v77_apply, val_main_v76_apply, val_main_cst_8_apply,
    val_main_v75_apply, val_main_v74_apply, val_main_v73_apply, val_main_v70_apply, val_main_v72_apply, val_main_v71_apply]
  simp only [val_main_v69_apply]
  have e1 : ∀ k : Fin 512, lidx_main_v70 (ix2 r (0 : Fin 1)) k = ix2 r k := fun k =>
    funext fun a => Fin.ext (by match a with | ⟨0, _⟩ => rfl | ⟨1, _⟩ => rfl)
  have e2 : ∀ k : Fin 512, idx_main_v69 (ridx_main_v70 (ix2 r (0 : Fin 1)) k) = ix2 (0 : Fin 1) k := fun k =>
    funext fun a => Fin.ext (by match a with | ⟨0, _⟩ => rfl | ⟨1, _⟩ => rfl)
  have e3 : idx_main_v71 (idx_main_v72 (ix2 r (0 : Fin 1))) = ix1 (0 : Fin 1) :=
    funext fun a => Fin.ext (by match a with | ⟨0, _⟩ => rfl)
  simp only [e1, e2, e3, ref_head0]
  exact host_logistic _

end Cert.RefRows

end
-- ==== Proof.lean ====
/-
  The kernel is an attention gate, an LSTM cell and an output head fused into one launch over 32 blocks of 256 batch
  rows; the reference is the same computation on the whole batch. At the ideal values a change of float format is the
  identity, a `tpu.matmul` into zero and the host's `dot_general` are the same sum, the kernel's logistic function and
  jax's expansion `1 / (1 + exp (-x))` are the same function, and the only difference between the two programs'
  arithmetic is the order in which the four terms of the gate pre-activations are added, which is immaterial on the
  extended reals (addition there is commutative and associative, infinities included). So no finiteness is used: the
  precondition is never opened.

  Each result row is a function of the same row of `x`, `h`, `c` and of the weights (CellSpec.lean). The kernel's body,
  read at an index of a block, is that function of the block's row (KernelAttn.lean, KernelCell.lean); block `t`'s row
  `p` is the arrays' row `256 t + p`, every point sees the same weights (the host's transposes and recasts read at an
  index), and the 32 blocks tile the 8192 rows, so the kernel's run ends with each result array at the whole-array
  function (Blocks.lean). The reference's run ends at its operations' composed term, which read at an index is the same
  function (RefAttn.lean, RefCell.lean). The three frames are the generated ones; the idealization's ledger is empty.
-/
import proofs.«125494_j63556926046386_1_alg».proof.Defs
import proofs.«125494_j63556926046386_1_alg».proof.Proof.Gen.Kernel
import proofs.«125494_j63556926046386_1_alg».proof.Proof.Gen.Kernel.Skeleton
import proofs.«125494_j63556926046386_1_alg».proof.Proof.Gen.Kernel.Launch
import proofs.«125494_j63556926046386_1_alg».proof.Proof.Gen.Kernel.Points
import proofs.«125494_j63556926046386_1_alg».proof.Proof.Gen.Kernel.Frame
import proofs.«125494_j63556926046386_1_alg».proof.Proof.Gen.KernelIdeal
import proofs.«125494_j63556926046386_1_alg».proof.Proof.Gen.KernelIdeal.Skeleton
import proofs.«125494_j63556926046386_1_alg».proof.Proof.Gen.KernelIdeal.Launch
import proofs.«125494_j63556926046386_1_alg».proof.Proof.Gen.KernelIdeal.Points
import proofs.«125494_j63556926046386_1_alg».proof.Proof.Gen.KernelIdeal.Frame
import proofs.«125494_j63556926046386_1_alg».proof.Proof.Gen.ReferenceIdeal
import proofs.«125494_j63556926046386_1_alg».proof.Proof.Gen.Pre_finite_inputs
import proofs.«125494_j63556926046386_1_alg».proof.Proof.KernelValue
import proofs.«125494_j63556926046386_1_alg».proof.Proof.Gen.ReferenceIdeal.Run
import proofs.«125494_j63556926046386_1_alg».proof.Proof.Gen.ReferenceIdeal.Read
import proofs.«125494_j63556926046386_1_alg».proof.Proof.Blocks
import proofs.«125494_j63556926046386_1_alg».proof.Proof.RefAttn
import proofs.«125494_j63556926046386_1_alg».proof.Proof.RefCell
import Idealize.ShloMosaic.Adequacy
import Idealize.ShloMosaic.Init

noncomputable section

namespace Cert.Proof

open Idealize.ShloMosaic Idealize.ShloMosaic.ValueIdx Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame: its run with the four results dropped. -/
theorem frame_ri : Cert.frame_ReferenceIdeal :=
  fun m ρ _ => (θ_run Cert.ReferenceIdeal.defs _ _).mono (fun _ h c => (h c).2.2.2.2)
    (Cert.ReferenceIdeal.Value.run (F := Ideal) m ρ)

/-- Both runs end with the four results at the same functions of arguments that agree. -/
theorem algebraic :
    Cert.algebraic_KernelIdeal_ReferenceIdeal := by
  intro m ρ m' ρ' _ hagree
  refine ⟨fun c => Cert.KernelBlocks.outArr m c, fun c => Cert.KernelBlocks.hArr m c, fun c => Cert.KernelBlocks.cArr m c,
    fun c => Cert.KernelBlocks.attnArr m c, Cert.KernelBlocks.run m ρ, ?_⟩
  refine (θ_run Cert.ReferenceIdeal.defs _ _).mono (fun r h c => ?_) (Cert.ReferenceIdeal.Value.run (F := Ideal) m' ρ')
  obtain ⟨h79, h62, h60, h22, hrest⟩ := h c
  obtain ⟨a0, a1, a2, a3, a4, a5, a6, a7, a8, a9, a10, a11, a12, a13, a14⟩ := hagree c
  refine ⟨h79.trans ?_, h62.trans ?_, h60.trans ?_, h22.trans ?_, hrest⟩
  · rw [Cert.ReferenceIdeal.Read.val_main_v79_eq, a0, a1, a2, a3, a4, a5, a6, a7, a8, a9, a10, a11, a12, a13, a14]
    funext i
    obtain ⟨r, z, rfl⟩ : ∃ (r : Fin 8192) (z : Fin 1), i = ix2 r z := ⟨i 0, i 1, eq_ix2 i⟩
    exact Cert.RefRows.ref_out _ _ _ _ _ _ _ _ _ _ _ _ _ _ _ r z
  · rw [Cert.ReferenceIdeal.Read.val_main_v62_eq, a0, a1, a2, a3, a4, a5, a6, a7, a8, a9, a10]
    funext i
    obtain ⟨r, j, rfl⟩ : ∃ (r : Fin 8192) (j : Fin 512), i = ix2 r j := ⟨i 0, i 1, eq_ix2 i⟩
    exact Cert.RefRows.ref_h _ _ _ _ _ _ _ _ _ _ _ r j
  · rw [Cert.ReferenceIdeal.Read.val_main_v60_eq, a0, a1, a2, a3, a4, a5, a6, a7, a8, a9, a10]
    funext i
    obtain ⟨r, j, rfl⟩ : ∃ (r : Fin 8192) (j : Fin 512), i = ix2 r j := ⟨i 0, i 1, eq_ix2 i⟩
    exact Cert.RefRows.ref_c _ _ _ _ _ _ _ _ _ _ _ r j
  · rw [Cert.ReferenceIdeal.Read.val_main_v22_eq, a0, a1, a3, a4, a5, a6]
    funext i
    obtain ⟨r, q, rfl⟩ : ∃ (r : Fin 8192) (q : Fin 256), i = ix2 r q := ⟨i 0, i 1, eq_ix2 i⟩
    exact Cert.RefRows.ref_attn _ _ _ _ _ _ r q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
